-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S2048x128 : Shape := ⟨2, ![2048, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg1 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x128 .f32) (main_arg1 : IVec S16384 32) (main_arg2 : FVec F S2048x128 .f32) (main_arg3 : FVec F S2048x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S2048x128 .f32 := Host.absf main_arg2
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg3
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 32 := constantI S_ 32 2048#32
  fn_part1 (F := F) main_arg1 main_v13 main_v15 main_c_5
-- ==== Kernel.lean ====
abbrev S16384x128 : Shape := ⟨2, ![16384, 128]⟩
abbrev S16384 : Shape := ⟨1, ![16384]⟩
abbrev S2048x128 : Shape := ⟨2, ![2048, 128]⟩
abbrev S_ : Shape := ⟨0, ![]⟩
abbrev S2048 : Shape := ⟨1, ![2048]⟩
abbrev S2048x1 : Shape := ⟨2, ![2048, 1]⟩
abbrev S128x2048 : Shape := ⟨2, ![128, 2048]⟩
abbrev S1x2048 : Shape := ⟨2, ![1, 2048]⟩
abbrev S16384x1 : Shape := ⟨2, ![16384, 1]⟩
abbrev S16384x2048 : Shape := ⟨2, ![16384, 2048]⟩
abbrev S1x16384 : Shape := ⟨2, ![1, 16384]⟩
abbrev S512x128 : Shape := ⟨2, ![512, 128]⟩
abbrev S512x1 : Shape := ⟨2, ![512, 1]⟩
abbrev S512x2048 : Shape := ⟨2, ![512, 2048]⟩
abbrev S1x512 : Shape := ⟨2, ![1, 512]⟩
abbrev S512 : Shape := ⟨1, ![512]⟩

abbrev nBuf : Space → Nat
  | .hbm => 58
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048x128, .f32⟩
  | .hbm, ⟨31, _⟩ => ⟨S2048x128, .f32⟩
  | .hbm, ⟨32, _⟩ => ⟨S128x2048, .f32⟩
  | .hbm, ⟨33, _⟩ => ⟨S128x2048, .bf16⟩
  | .hbm, ⟨34, _⟩ => ⟨S_, .f32⟩
  | .hbm, ⟨35, _⟩ => ⟨S2048x128, .f32⟩
  | .hbm, ⟨36, _⟩ => ⟨S2048x128, .f32⟩
  | .hbm, ⟨37, _⟩ => ⟨S128x2048, .f32⟩
  | .hbm, ⟨38, _⟩ => ⟨S128x2048, .bf16⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S1x2048, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384x2048, .f32⟩
  | .hbm, ⟨53, _⟩ => ⟨S1x16384, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x1, .i32⟩
  | .local _ .vmem, ⟨3, _⟩ => ⟨S512x1, .i32⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x512, .f32⟩
  | .local _ .vmem, ⟨10, _⟩ => ⟨S1x512, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_c_6 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_cst_7 : Ref sig .tc := ⟨.hbm, 54, rfl⟩
abbrev main_v26 : Ref sig .tc := ⟨.hbm, 55, rfl⟩
abbrev main_cst_8 : Ref sig .tc := ⟨.hbm, 56, rfl⟩
abbrev main_v27 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S2048x128 : S_.BroadcastsInDim S2048x128 (![] : Fin 0 → Fin S2048x128.rank)
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  transposes_S2048x128_S128x2048_1_0 : S2048x128.Transposes [1, 0] S128x2048
  bitsLt_bf16_f32 : FTy.bits .bf16 < FTy.bits .f32
  bcast_S_S2048 : S_.BroadcastsInDim S2048 (![] : Fin 0 → Fin S2048.rank)
  shapeCasts_S2048_S1x2048 : S2048.ShapeCasts S1x2048
  bcast_S_S16384 : S_.BroadcastsInDim S16384 (![] : Fin 0 → Fin S16384.rank)
  shapeCasts_S16384_S16384x1 : S16384.ShapeCasts S16384x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  broadcasts_S512x1_S512x2048 : S512x1.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x2048_d1_w32 : S512x2048.Iotas .tc 32 [1]
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  inb_S512x2048_S512x2048_0_0 : ∀ a, (![0, 0] : Fin 2 → Nat) a + S512x2048.size a ≤ S512x2048.size a
  h_S512x2048 : 0 < S512x2048.numel
  reducesTo_S1x16384_S_d0_1 : S1x16384.ReducesTo [0, 1] S_
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .bf16 = 32 ∨ (Rect.block (s := S128x2048) S128x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .bf16 = 32 ∨ (Rect.block (s := S128x2048) S128x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x2048.size a
  hwx0_5 : ∀ i : grid0.Coords, EltTy.bits .f32 = 32 ∨ (Rect.block (s := S16384x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x16384.size a
  hwx0_6 : ∀ i : grid0.Coords, EltTy.bits .f32 = 32 ∨ (Rect.block (s := S1x16384) S1x512.size (cc0_transform_6 i) (hinb0_6 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384 : Shape := ⟨1, ![16384]⟩
abbrev S2048x128 : Shape := ⟨2, ![2048, 128]⟩
abbrev S_ : Shape := ⟨0, ![]⟩
abbrev S16384x1 : Shape := ⟨2, ![16384, 1]⟩
abbrev S2048 : Shape := ⟨1, ![2048]⟩
abbrev S2048x1 : Shape := ⟨2, ![2048, 1]⟩
abbrev S16384x2048 : Shape := ⟨2, ![16384, 2048]⟩
abbrev S1x2048 : Shape := ⟨2, ![1, 2048]⟩
abbrev S16384x2 : Shape := ⟨2, ![16384, 2]⟩

abbrev nBuf : Space → Nat
  | .hbm => 106
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x128, .f32⟩
  | .hbm, ⟨8, _⟩ => ⟨S2048x128, .f32⟩
  | .hbm, ⟨9, _⟩ => ⟨S_, .f32⟩
  | .hbm, ⟨10, _⟩ => ⟨S2048x128, .f32⟩
  | .hbm, ⟨11, _⟩ => ⟨S2048x128, .f32⟩
  | .hbm, ⟨12, _⟩ => ⟨S16384x128, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x128, .f32⟩
  | .hbm, ⟨21, _⟩ => ⟨S16384x128, .f32⟩
  | .hbm, ⟨22, _⟩ => ⟨S2048x128, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S16384x128, .f32⟩
  | .hbm, ⟨35, _⟩ => ⟨S16384x2048, .f32⟩
  | .hbm, ⟨36, _⟩ => ⟨S2048x128, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S2048x128, .f32⟩
  | .hbm, ⟨43, _⟩ => ⟨S2048x128, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S16384x1, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1, .f32⟩
  | .hbm, ⟨65, _⟩ => ⟨S16384x2048, .f32⟩
  | .hbm, ⟨66, _⟩ => ⟨S16384x2048, .f32⟩
  | .hbm, ⟨67, _⟩ => ⟨S16384, .i32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S16384x1, .i32⟩
  | .hbm, ⟨83, _⟩ => ⟨S16384x1, .i32⟩
  | .hbm, ⟨84, _⟩ => ⟨S16384x2, .i32⟩
  | .hbm, ⟨85, _⟩ => ⟨S16384, .f32⟩
  | .hbm, ⟨86, _⟩ => ⟨S16384, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S16384x1, .i32⟩
  | .hbm, ⟨92, _⟩ => ⟨S1x2048, .i32⟩
  | .hbm, ⟨93, _⟩ => ⟨S16384x2048, .i32⟩
  | .hbm, ⟨94, _⟩ => ⟨S16384x2048, .i32⟩
  | .hbm, ⟨95, _⟩ => ⟨S16384x2048, .i1⟩
  | .hbm, ⟨96, _⟩ => ⟨S16384x2048, .f32⟩
  | .hbm, ⟨97, _⟩ => ⟨S_, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S_, .f32⟩
  | .hbm, ⟨102, _⟩ => ⟨S16384x2048, .f32⟩
  | .hbm, ⟨103, _⟩ => ⟨S16384x2048, .f32⟩
  | .hbm, ⟨104, _⟩ => ⟨S16384x2048, .f32⟩
  | .hbm, ⟨105, _⟩ => ⟨S16384x2048, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call2_v0 : Ref sig .tc := ⟨.hbm, 22, rfl⟩
abbrev main_call2_cst : Ref sig .tc := ⟨.hbm, 23, rfl⟩
abbrev main_call2_v1 : Ref sig .tc := ⟨.hbm, 24, rfl⟩
abbrev main_call2_v2 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_call3_cst : Ref sig .tc := ⟨.hbm, 52, rfl⟩
abbrev main_call3_v0 : Ref sig .tc := ⟨.hbm, 53, rfl⟩
abbrev main_call3_cst_0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_v6 : Ref sig .tc := ⟨.hbm, 60, rfl⟩
abbrev main_call3_cst_1 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_v28 : Ref sig .tc := ⟨.hbm, 66, rfl⟩
abbrev main_v29 : Ref sig .tc := ⟨.hbm, 67, rfl⟩
abbrev main_c : Ref sig .tc := ⟨.hbm, 68, rfl⟩
abbrev main_v30 : Ref sig .tc := ⟨.hbm, 69, rfl⟩
abbrev main_v31 : Ref sig .tc := ⟨.hbm, 70, rfl⟩
abbrev main_c_6 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_7 : Ref sig .tc := ⟨.hbm, 75, rfl⟩
abbrev main_v35 : Ref sig .tc := ⟨.hbm, 76, rfl⟩
abbrev main_v36 : Ref sig .tc := ⟨.hbm, 77, rfl⟩
abbrev main_c_8 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_cst_10 : Ref sig .tc := ⟨.hbm, 89, rfl⟩
abbrev main_v46 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_v47 : Ref sig .tc := ⟨.hbm, 96, rfl⟩
abbrev main_cst_11 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_12 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩

abbrev nD : Nat := 1
abbrev τ : Topo := Topo.v7x

variable {F : FTy → Type} [FloatOps F]

class Facts₀ : Prop where
  bcast_S_S2048x128 : S_.BroadcastsInDim S2048x128 (![] : Fin 0 → Fin S2048x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  reducesTo_S2048x128_S2048_d1 : S2048x128.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  bcast_S_S16384 : S_.BroadcastsInDim S16384 (![] : Fin 0 → Fin S16384.rank)
  bcast_S16384x1_S16384x2048_0_1 : S16384x1.BroadcastsInDim S16384x2048 (![0, 1] : Fin 2 → Fin S16384x2048.rank)
  concatenates_S16384x1_S16384x1_S16384x2_d1 : Shape.Concatenates [S16384x1, S16384x1] S16384x2 1
  reducesTo_S16384_S_d0 : S16384.ReducesTo [0] S_
  dot_S16384x128_S2048x128_S16384x2048_1_1_0_0_n_n_wf : DotDims.WF S16384x128 S2048x128 S16384x2048 [1] [1] [0] [0] [] []
  gather_S16384x2048_S16384x2_S16384_n_01_n_n_01_1_11_wf : GatherDims.WF S16384x2048 S16384x2 S16384 [] [0, 1] [] [0, 1] [] 1 ![1, 1]

variable [Facts₀]

def dot_S16384x128_S2048x128_S16384x2048_1_1_0_0_n_n : DotDims S16384x128 S2048x128 S16384x2048 where
  lhsContracting := [1]
  rhsContracting := [1]
  lhsNonContracting := [0]
  rhsNonContracting := [0]
  lhsBatch := []
  rhsBatch := []
  wf := dot_S16384x128_S2048x128_S16384x2048_1_1_0_0_n_n_wf
def gather_S16384x2048_S16384x2_S16384_n_01_n_n_01_1_11 : GatherDims S16384x2048 S16384x2 S16384 where
  offsetDims := []
  collapsedSliceDims := [0, 1]
  operandBatchingDims := []
  startIndicesBatchingDims := []
  startIndexMap := [0, 1]
  indexVectorDim := 1
  sliceSizes := ![1, 1]
  wf := gather_S16384x2048_S16384x2_S16384_n_01_n_n_01_1_11_wf

class Facts : Prop extends Facts₀ where

variable [Facts]
-- ==== Proof.Spec.lean ====
/-
  The mathematics of the certificate, stated once over plain functions of the four argument arrays:
  samples `X : 16384 × 128`, labels `T : 16384` (32-bit words), class means `M : 2048 × 128` and class
  log-variances `LV : 2048 × 128`, every float an extended real.

  Both programs normalise the rows of `X` and of `M` to unit length (`nrm`), turn the clipped log-variances into
  inverse variances `ic = exp (-clip lv)`, and compare every sample with every class by the diagonal Mahalanobis
  distance written as three sums over the 128 features: `qf - 2 · cf + bf`.
  The reference forms that distance `D`, the logits `-32 · D`, their row-wise log-softmax, the mean over the samples
  of minus the label's log-probability (`meanR`), and the matrix `HR = P + exp (-0.9 · D) · (1 - P)` with `P` the
  one-hot matrix of the labels.
  The kernel folds the factor `-32` into the operands of its two matrix products and into the bias row, so its
  logits are `LK`; it takes the log-sum-exp of a row minus the label's logit (picked out by a masked row sum) as
  the loss (`meanK`), and `HK` selects `1` at the label and `exp ((0.9/32) · LK)` elsewhere.
  This module only states the two sides; that they agree is proved elsewhere.
-/
import Idealize.ShloMosaic.PureOps.Ideal
import Idealize.ShloMosaic.Lib.ValueIdx

noncomputable section

namespace Cert.Spec

open Idealize.ShloMosaic Idealize.ShloMosaic.ValueIdx

/-! ## The literals, as the extended reals their f32 words denote -/

/-- `1e-12` as an f32: the floor under a row's length. -/
def eps : EReal := Ideal.ofBits .f32 0x2B8CBCCC#32
/-- `6`: the upper clip of a log-variance. -/
def c6 : EReal := Ideal.ofBits .f32 0x40C00000#32
/-- `-32`: minus the softmax temperature. -/
def m32 : EReal := Ideal.ofBits .f32 0xC2000000#32
/-- `64`: twice the temperature. -/
def c64 : EReal := Ideal.ofBits .f32 0x42800000#32
/-- `2`. -/
def c2 : EReal := Ideal.ofBits .f32 0x40000000#32
/-- `1`. -/
def c1 : EReal := Ideal.ofBits .f32 0x3F800000#32
/-- The f32 nearest `0.9 / 32`, the kernel's scale of its logits inside `exp`. -/
def cK : EReal := Ideal.ofBits .f32 0x3CE66666#32
/-- The f32 nearest `-0.9`, the reference's scale of the distance inside `exp`. -/
def cR : EReal := Ideal.ofBits .f32 0xBF666666#32
/-- `-∞`: where a row maximum starts. -/
def ninf : EReal := Ideal.ofBits .f32 0xFF800000#32
/-- `16384`, the number of samples. -/
def cN : EReal := Ideal.ofBits .f32 0x46800000#32

/-! ## One row at a time -/

/-- A row of 128 features scaled to unit length, its length floored at `eps`. -/
def nrmRow (xr : Fin 128 → EReal) (f : Fin 128) : EReal :=
  Ideal.div (xr f) (max (Ideal.sqrt (∑ f' : Fin 128, xr f' * xr f')) eps)

/-- The greatest entry of a row of logits, from `-∞`. -/
def rowmax (L : Fin 2048 → EReal) : EReal := (Finset.univ : Finset (Fin 2048)).fold max ninf L

/-- The kernel's logits of one sample, from its normalised features `xr`, the two class tables `W1`, `W2`
    (feature × class) its matrix products contract with, and the bias row `b`. -/
def logitK (xr : Fin 128 → EReal) (W1 W2 : Fin 128 → Fin 2048 → EReal) (b : Fin 2048 → EReal) (c : Fin 2048) : EReal :=
  ((∑ f : Fin 128, (xr f * xr f) * W1 f c) + ∑ f : Fin 128, xr f * W2 f c) + b c

/-- The kernel's loss of one sample with logits `L` and label word `w`: the log-sum-exp minus the label's logit,
    the latter as the sum of the row masked to the label. -/
def rowLossK (L : Fin 2048 → EReal) (w : BitVec 32) : EReal :=
  (rowmax L + Ideal.log (∑ c : Fin 2048, Ideal.exp (L c - rowmax L)))
    - ∑ c : Fin 2048, (if w = BitVec.ofNat 32 c.val then L c else 0)

/-- The kernel's second result on one sample: `1` at the label, `exp (cK · logit)` elsewhere. -/
def rowHK (L : Fin 2048 → EReal) (w : BitVec 32) (c : Fin 2048) : EReal :=
  if w = BitVec.ofNat 32 c.val then c1 else Ideal.exp (cK * L c)

/-- The label word of a sample as a class index (a word below 2048 is itself). -/
def tIdx (w : BitVec 32) : Fin 2048 := ⟨w.toNat % 2048, Nat.mod_lt _ (by norm_num)⟩

/-- A label word clipped to `[0, 2047]` as signed integers, as the kernel's wrapper does. -/
def clipT (w : BitVec 32) : BitVec 32 := IntOp.minsi 2047#32 (IntOp.maxsi 0#32 w)

/-! ## What both programs share -/

/-- Row `r` of a matrix scaled to unit length. -/
def nrm {N : ℕ} (A : Fin N → Fin 128 → EReal) (r : Fin N) (f : Fin 128) : EReal := nrmRow (A r) f

/-- The inverse variance of feature `f` of class `c`: `exp` of minus the log-variance clipped to `[0, 6]`. -/
def ic (LV : Fin 2048 → Fin 128 → EReal) (c : Fin 2048) (f : Fin 128) : EReal :=
  Ideal.exp (-(min c6 (max 0 (LV c f))))

variable (X : Fin 16384 → Fin 128 → EReal) (T : Fin 16384 → BitVec 32) (M LV : Fin 2048 → Fin 128 → EReal)

/-- `Σ_f xn² · ic`. -/
def qf (n : Fin 16384) (c : Fin 2048) : EReal := ∑ f : Fin 128, (nrm X n f * nrm X n f) * ic LV c f
/-- `Σ_f xn · (mu · ic)`. -/
def cf (n : Fin 16384) (c : Fin 2048) : EReal := ∑ f : Fin 128, nrm X n f * (nrm M c f * ic LV c f)
/-- `Σ_f mu² · ic`. -/
def bf (c : Fin 2048) : EReal := ∑ f : Fin 128, (nrm M c f * nrm M c f) * ic LV c f

/-! ## The reference -/

/-- The distance of sample `n` to class `c`. -/
def D (n : Fin 16384) (c : Fin 2048) : EReal := (qf X LV n c - c2 * cf X M LV n c) + bf M LV c

/-- The reference's logits. -/
def LR (n : Fin 16384) (c : Fin 2048) : EReal := m32 * D X M LV n c

/-- The reference's shift of row `n`: its maximum, joined once more with `-∞`. -/
def shiftR (n : Fin 16384) : EReal := max ninf (rowmax (LR X M LV n))

/-- The row-wise log-softmax of the reference's logits. -/
def logp (n : Fin 16384) (c : Fin 2048) : EReal :=
  (LR X M LV n c - shiftR X M LV n) - Ideal.log (∑ c' : Fin 2048, Ideal.exp (LR X M LV n c' - shiftR X M LV n))

/-- The reference's loss of sample `n`. -/
def lossR (n : Fin 16384) : EReal := -(logp X M LV n (tIdx (T n)))

/-- The reference's first result: the mean loss. -/
def meanR : EReal := Ideal.div (∑ n : Fin 16384, lossR X T M LV n) cN

/-- The one-hot matrix of the labels. -/
def hot (n : Fin 16384) (c : Fin 2048) : EReal := if T n = BitVec.ofNat 32 c.val then 1 else 0

/-- The reference's second result. -/
def HR (n : Fin 16384) (c : Fin 2048) : EReal :=
  hot T n c + Ideal.exp (cR * D X M LV n c) * (c1 - hot T n c)

/-! ## The kernel -/

/-- The first class table of the kernel, feature × class: `-32 · ic`. -/
def W1 (f : Fin 128) (c : Fin 2048) : EReal := m32 * ic LV c f
/-- The second class table of the kernel, feature × class: `64 · mu · ic`. -/
def W2 (f : Fin 128) (c : Fin 2048) : EReal := c64 * (nrm M c f * ic LV c f)
/-- The kernel's bias row: `-32 · Σ_f mu² · ic`. -/
def bK (c : Fin 2048) : EReal := m32 * bf M LV c

/-- The kernel's logits: the factor `-32` inside both sums and on the bias. -/
def LK (n : Fin 16384) (c : Fin 2048) : EReal := logitK (nrm X n) (W1 LV) (W2 M LV) (bK M LV) c

/-- The kernel's loss of sample `n`. -/
def lossK (n : Fin 16384) : EReal := rowLossK (LK X M LV n) (T n)

/-- The kernel's first result. -/
def meanK : EReal := Ideal.div (∑ n : Fin 16384, lossK X T M LV n) cN

/-- The kernel's second result. -/
def HK (n : Fin 16384) (c : Fin 2048) : EReal := rowHK (LK X M LV n) (T n) c

/-! ## The same over arrays indexed as the programs index them -/

/-- A rank-2 array as a function of its two coordinates. -/
def curry2 {α : Type} {a b : ℕ} (A : (⟨2, ![a, b]⟩ : Shape).Idx → α) (i : Fin a) (j : Fin b) : α := A (ix2 i j)
/-- A rank-1 array as a function of its coordinate. -/
def curry1 {α : Type} {a : ℕ} (A : (⟨1, ![a]⟩ : Shape).Idx → α) (i : Fin a) : α := A (ix1 i)

section Arrays

variable (aX : (⟨2, ![16384, 128]⟩ : Shape).Idx → EReal) (aT : (⟨1, ![16384]⟩ : Shape).Idx → BitVec 32)
  (aM aLV : (⟨2, ![2048, 128]⟩ : Shape).Idx → EReal)

/-- The kernel's matrix result as an array; the labels are clipped first, as the kernel's wrapper does. -/
def HKarr : (⟨2, ![16384, 2048]⟩ : Shape).Idx → EReal := fun i =>
  HK (curry2 aX) (fun n => clipT (curry1 aT n)) (curry2 aM) (curry2 aLV) (i 0) (i 1)
/-- The kernel's scalar result as an array of rank 0. -/
def meanKarr : (⟨0, ![]⟩ : Shape).Idx → EReal := fun _ =>
  meanK (curry2 aX) (fun n => clipT (curry1 aT n)) (curry2 aM) (curry2 aLV)
/-- The reference's matrix result as an array. -/
def HRarr : (⟨2, ![16384, 2048]⟩ : Shape).Idx → EReal := fun i =>
  HR (curry2 aX) (curry1 aT) (curry2 aM) (curry2 aLV) (i 0) (i 1)
/-- The reference's scalar result as an array of rank 0. -/
def meanRarr : (⟨0, ![]⟩ : Shape).Idx → EReal := fun _ =>
  meanR (curry2 aX) (curry1 aT) (curry2 aM) (curry2 aLV)

end Arrays

end Cert.Spec

end
-- ==== Proof.KHost.lean ====
/-
  What the kernel's wrapper hands to the region: the two class tables, the bias row and the clipped labels,
  each read at an index as the specification's function of the argument arrays.
-/
import proofs.«401288_j57552561766661_2_alg».proof.Proof.Gen.KernelIdeal.Frame
import proofs.«401288_j57552561766661_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.HostVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The samples, as launched on core `c`. -/
abbrev aX (c : Dev nD) : S16384x128.Idx → EReal := m ((c.tc : Thread nD τ).loc main_arg0)
/-- The label words. -/
abbrev aT (c : Dev nD) : S16384.Idx → BitVec 32 := m ((c.tc : Thread nD τ).loc main_arg1)
/-- The class means. -/
abbrev aM (c : Dev nD) : S2048x128.Idx → EReal := m ((c.tc : Thread nD τ).loc main_arg2)
/-- The class log-variances. -/
abbrev aLV (c : Dev nD) : S2048x128.Idx → EReal := m ((c.tc : Thread nD τ).loc main_arg3)

/-! ## The wrapper's arithmetic on plain arrays

The intermediate arrays every class table is built from, as functions of the argument arrays, and each read at
an index. -/

/-- The inverse variances as the wrapper computes them: `exp` of minus the log-variances clipped to `[0, 6]`. -/
def hIC (lv : FVec Ideal S2048x128 .f32) : FVec Ideal S2048x128 .f32 :=
  Host.exp (F := Ideal) (Host.negf (F := Ideal)
    (minimumf (broadcastInDim S2048x128 ![] bcast_S_S2048x128 (constant (F := Ideal) S_ .f32 0x40C00000#32))
      (maximumf (broadcastInDim S2048x128 ![] bcast_S_S2048x128 (constant (F := Ideal) S_ .f32 0x00000000#32)) lv)))

/-- The sum of every row of a `2048 × 128` array, started from the literal zero. -/
def hRow (y : FVec Ideal S2048x128 .f32) : FVec Ideal S2048 .f32 :=
  Host.reduceAdd (F := Ideal) y (constant (F := Ideal) S_ .f32 0x00000000#32) reducesTo_S2048x128_S2048_d1 h_S_

/-- The floored length of every row of the class means, as a column. -/
def hLen (mm : FVec Ideal S2048x128 .f32) : FVec Ideal S2048x1 .f32 :=
  maximumf (Host.sqrt (F := Ideal) (broadcastInDim (s := S2048) S2048x1 ![0] bcast_S2048_S2048x1_0 (hRow (mulf mm mm))))
    (broadcastInDim (s := S_) S2048x1 ![] bcast_S_S2048x1 (constant (F := Ideal) S_ .f32 0x2B8CBCCC#32))

/-- The class means with every row scaled to unit length, the length floored at `1e-12`. -/
def hMu (mm : FVec Ideal S2048x128 .f32) : FVec Ideal S2048x128 .f32 :=
  Host.divf (F := Ideal) mm (broadcastInDim (s := S2048x1) S2048x128 ![0, 1] bcast_S2048x1_S2048x128_0_1 (hLen mm))

/-- An inverse variance at an index: the clip's two bounds are the literals `6` and `0`. -/
theorem hIC_apply (lv : FVec Ideal S2048x128 .f32) (i : S2048x128.Idx) :
    hIC lv i = Ideal.exp (-(min Cert.Spec.c6 (max 0 (lv i)))) := by
  show Ideal.exp (-(min (Ideal.ofBits .f32 0x40C00000#32) (max (Ideal.ofBits .f32 0x00000000#32) (lv i)))) = _
  rw [Ideal.ofBits_zero_f32]
  rfl

/-- A row sum at an index: the sum over the 128 features, the initial zero dropped. -/
theorem hRow_apply (y : FVec Ideal S2048x128 .f32) (r : Fin 2048) :
    hRow y (ix1 r) = ∑ f : Fin 128, y (ix2 r f) := by
  unfold hRow
  simp only [Host.reduceAdd, Ideal.hostReduceAdd_def]
  rw [Ideal.hostReduceAdd_single reducesTo_S2048x128_S2048_d1 (by decide)]
  rw [show constant (F := Ideal) S_ .f32 0x00000000#32 (Shape.Idx.first h_S_) = 0 from Ideal.ofBits_zero_f32, zero_add]
  refine Finset.sum_congr rfl fun k _ => ?_
  exact congrArg y (funext fun a => Fin.ext (by match a with | ⟨0, _⟩ => rfl | ⟨1, _⟩ => rfl))

/-- A row's floored length at an index: the root of the sum of its squares, against `1e-12`. -/
theorem hLen_apply (mm : FVec Ideal S2048x128 .f32) (r : Fin 2048) :
    hLen mm (ix2 r 0) = max (Ideal.sqrt (∑ f' : Fin 128, mm (ix2 r f') * mm (ix2 r f'))) Cert.Spec.eps := by
  have hb : broadcastInDim (s := S2048) S2048x1 ![0] bcast_S2048_S2048x1_0 (hRow (mulf mm mm)) (ix2 r 0)
      = hRow (mulf mm mm) (ix1 r) :=
    broadcastInDim_apply _ bcast_S2048_S2048x1_0 _ (ix2 r 0) (ix1 r) (fun a => match a with
      | ⟨0, _⟩ => by show r.val = if (2048 : Nat) = 1 then 0 else r.val; rw [if_neg (by decide)])
  show max (Ideal.sqrt (broadcastInDim (s := S2048) S2048x1 ![0] bcast_S2048_S2048x1_0 (hRow (mulf mm mm)) (ix2 r 0)))
      Cert.Spec.eps = _
  rw [hb, hRow_apply]
  rfl

/-- A normalised mean at an index: the entry over its row's length, floored. -/
theorem hMu_apply (mm : FVec Ideal S2048x128 .f32) (r : Fin 2048) (f : Fin 128) :
    hMu mm (ix2 r f)
      = Ideal.div (mm (ix2 r f)) (max (Ideal.sqrt (∑ f' : Fin 128, mm (ix2 r f') * mm (ix2 r f'))) Cert.Spec.eps) := by
  have hb : broadcastInDim (s := S2048x1) S2048x128 ![0, 1] bcast_S2048x1_S2048x128_0_1 (hLen mm) (ix2 r f)
      = hLen mm (ix2 r 0) :=
    broadcastInDim_apply _ bcast_S2048x1_S2048x128_0_1 _ (ix2 r f) (ix2 r 0) (fun a => match a with
      | ⟨0, _⟩ => by show r.val = if (2048 : Nat) = 1 then 0 else r.val; rw [if_neg (by decide)]
      | ⟨1, _⟩ => by show 0 = if (1 : Nat) = 1 then 0 else f.val; rw [if_pos rfl])
  show Ideal.div (mm (ix2 r f))
      (broadcastInDim (s := S2048x1) S2048x128 ![0, 1] bcast_S2048x1_S2048x128_0_1 (hLen mm) (ix2 r f)) = _
  rw [hb, hLen_apply]

/-! ## The four arrays the region finds

Each is first identified with the composition of the wrapper's operations on the argument arrays, then read at an
index. -/

section Results

open Idealize.ShloMosaic.StableHlo

/-- The first class table is the transposed, narrowed product of `-32` with the inverse variances. -/
theorem e_v15 (c : Dev nD) :
    (V m c main_v15 : S128x2048.Idx → EReal)
      = truncf .bf16 (transpose S128x2048 [1, 0]
          (mulf (broadcastInDim (s := S_) S2048x128 ![] bcast_S_S2048x128 (constant (F := Ideal) S_ .f32 0xC2000000#32))
            (hIC (aLV m c)))
          transposes_S2048x128_S128x2048_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  simp only [TRef.ofBuf, TRef.toBuf, cast_eq]
  rfl

/-- The second class table is the transposed, narrowed product of `64` with the normalised means times the inverse
    variances. -/
theorem e_v19 (c : Dev nD) :
    (V m c main_v19 : S128x2048.Idx → EReal)
      = truncf .bf16 (transpose S128x2048 [1, 0]
          (mulf (broadcastInDim (s := S_) S2048x128 ![] bcast_S_S2048x128 (constant (F := Ideal) S_ .f32 0x42800000#32))
            (mulf (hMu (aM m c)) (hIC (aLV m c))))
          transposes_S2048x128_S128x2048_1_0) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  simp only [TRef.ofBuf, TRef.toBuf, cast_eq]
  rfl

/-- The bias row is the row sums of the squared normalised means times the inverse variances, times `-32`, as a row. -/
theorem e_v22 (c : Dev nD) :
    (V m c main_v22 : S1x2048.Idx → EReal)
      = shapeCast S1x2048
          (mulf (broadcastInDim (s := S_) S2048 ![] bcast_S_S2048 (constant (F := Ideal) S_ .f32 0xC2000000#32))
            (hRow (mulf (mulf (hMu (aM m c)) (hMu (aM m c))) (hIC (aLV m c)))))
          shapeCasts_S2048_S1x2048 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  simp only [TRef.ofBuf, TRef.toBuf, cast_eq]
  rfl

/-- The label column is the labels clipped below by `0` and above by `2047`, as a column. -/
theorem e_v24 (c : Dev nD) :
    (V m c main_v24 : S16384x1.Idx → BitVec 32)
      = shapeCast S16384x1 (minsi (broadcastInDim (s := S_) S16384 ![] bcast_S_S16384 (constantI S_ 32 2047#32))
          (maxsi (broadcastInDim (s := S_) S16384 ![] bcast_S_S16384 (constantI S_ 32 0#32)) (aT m c)))
          shapeCasts_S16384_S16384x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  simp only [TRef.ofBuf, TRef.toBuf, cast_eq]
  rfl

end Results

/-- The first class table (feature × class) is `-32 · ic`. -/
theorem V_v15 (c : Dev nD) (f : Fin 128) (cl : Fin 2048) :
    (V m c main_v15 : S128x2048.Idx → EReal) (ix2 f cl) = Cert.Spec.W1 (Cert.Spec.curry2 (aLV m c)) f cl := by
  rw [e_v15]
  -- narrowing the format changes no value; the transpose reads the operand at the swapped index
  refine (truncf_apply _ bitsLt_bf16_f32 (ix2 f cl)).trans ?_
  refine (transpose_apply [1, 0] _ transposes_S2048x128_S128x2048_1_0 (ix2 f cl) (ix2 cl f)
    (fun b => match b with | ⟨0, _⟩ => rfl | ⟨1, _⟩ => rfl)).trans ?_
  show Ideal.ofBits .f32 0xC2000000#32 * hIC (aLV m c) (ix2 cl f) = _
  rw [hIC_apply]
  rfl

/-- The second class table (feature × class) is `64 · mu · ic`. -/
theorem V_v19 (c : Dev nD) (f : Fin 128) (cl : Fin 2048) :
    (V m c main_v19 : S128x2048.Idx → EReal) (ix2 f cl)
      = Cert.Spec.W2 (Cert.Spec.curry2 (aM m c)) (Cert.Spec.curry2 (aLV m c)) f cl := by
  rw [e_v19]
  refine (truncf_apply _ bitsLt_bf16_f32 (ix2 f cl)).trans ?_
  refine (transpose_apply [1, 0] _ transposes_S2048x128_S128x2048_1_0 (ix2 f cl) (ix2 cl f)
    (fun b => match b with | ⟨0, _⟩ => rfl | ⟨1, _⟩ => rfl)).trans ?_
  show Ideal.ofBits .f32 0x42800000#32 * (hMu (aM m c) (ix2 cl f) * hIC (aLV m c) (ix2 cl f)) = _
  rw [hMu_apply, hIC_apply]
  rfl

/-- The bias row is `-32 · Σ_f mu² · ic`. -/
theorem V_v22 (c : Dev nD) (cl : Fin 2048) :
    (V m c main_v22 : S1x2048.Idx → EReal) (ix2 0 cl)
      = Cert.Spec.bK (Cert.Spec.curry2 (aM m c)) (Cert.Spec.curry2 (aLV m c)) cl := by
  rw [e_v22]
  refine (shapeCast_a_1a_apply _ shapeCasts_S2048_S1x2048 0 cl).trans ?_
  show Ideal.ofBits .f32 0xC2000000#32
      * hRow (mulf (mulf (hMu (aM m c)) (hMu (aM m c))) (hIC (aLV m c))) (ix1 cl) = _
  rw [hRow_apply]
  unfold Cert.Spec.bK Cert.Spec.bf
  refine congrArg (Cert.Spec.m32 * ·) (Finset.sum_congr rfl fun f _ => ?_)
  show (hMu (aM m c) (ix2 cl f) * hMu (aM m c) (ix2 cl f)) * hIC (aLV m c) (ix2 cl f) = _
  rw [hMu_apply, hIC_apply]
  rfl

/-- The label column holds the labels clipped to `[0, 2047]`. -/
theorem V_v24 (c : Dev nD) (n : Fin 16384) :
    (V m c main_v24 : S16384x1.Idx → BitVec 32) (ix2 n 0) = Cert.Spec.clipT (Cert.Spec.curry1 (aT m c) n) := by
  rw [e_v24]
  -- the column's entry `(n, 0)` and the vector's entry `n` have the same row-major position
  refine (shapeCast_apply _ shapeCasts_S16384_S16384x1 (ix2 n 0) (ix1 n) ?_).trans ?_
  · rw [Shape.rowMajor_val_two, Shape.rowMajor_val_one]
    show n.val = n.val * 1 + 0
    omega
  · rfl

end Cert.KernelIdeal.HostVal

end
-- ==== Proof.KBody.lean ====
/-
  What one grid point's body leaves in its two output blocks, read at an index: row `r` of the 512-row block
  of samples gives row `r` of the matrix block and entry `r` of the loss row, as the specification's one-row functions
  of that sample's features, the two class tables, the bias row and the sample's label word.
-/
import proofs.«401288_j57552561766661_2_alg».proof.Proof.Gen.KernelIdeal.Frame
import proofs.«401288_j57552561766661_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe
open Idealize.ShloMosaic.ValueIdx

/-! ## Layout operations on columns, read at an index -/

section Layout
variable {α : Type}

/-- A vector `[a]` cast to the column `[a, 1]` reads, at `(p, q)`, the operand at `p`. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along a row, read at the row -/

/-- The sum of a matrix `[a, b]` along axis 1, at row `p`: the sum of that row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun c => Fin.ext (by
      match c with
      | ⟨0, _⟩ => rfl
      | ⟨1, _⟩ => rfl)))

/-- The maximum of a matrix `[a, b]` along axis 1, at row `p`: the fold of `max` over that row's entries from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f) (funext fun k =>
      congrArg src (funext fun c => Fin.ext (by
        match c with
        | ⟨0, _⟩ => rfl
        | ⟨1, _⟩ => rfl))))

/-- The same for an f32 sum whose accumulator's fact is stated of the zero word itself. -/
theorem rowSum_f32_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The same for an f32 maximum from `-∞` whose accumulator's fact is stated of that word itself. -/
theorem rowMax_f32_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

/-! ## The matrix product `[512, 128] × [128, 2048]` into a zero accumulator, read at an index -/

/- The operands' indices at result index `i` and contraction coordinate `q`: the left operand is read at row `i 0` and
   feature `q`, the right operand at feature `q` and class `i 1`; one statement per axis. -/
theorem dot_lhs_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem dot_lhs_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem dot_rhs_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem dot_rhs_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The product at row `r` and class `cl` is the sum over the 128 features of the operands' products. -/
theorem matmul_zero_apply (A : FVec Ideal S512x128 .bf16) (B : FVec Ideal S128x2048 .bf16) (r : Fin 512) (cl : Fin 2048) :
    matmul dot_S512x128_S128x2048_S512x2048_1_0_0_1_n_n none A B (constant (F := Ideal) S512x2048 .f32 0x00000000#32) (ix2 r cl)
      = ∑ k : Fin 128, A (ix2 r k) * B (ix2 k cl) := by
  simp only [matmul]
  rw [Ideal.matmul_constant_zero_apply, ← Equiv.sum_comp (contrEquiv1 dot_S512x128_S128x2048_S512x2048_1_0_0_1_n_n 128 rfl rfl).symm]
  refine Finset.sum_congr rfl fun k _ => ?_
  have hk := contrEquiv1_symm_val dot_S512x128_S128x2048_S512x2048_1_0_0_1_n_n 128 rfl rfl k
  have el : dot_S512x128_S128x2048_S512x2048_1_0_0_1_n_n.lhsIdx (ix2 r cl) ((contrEquiv1 dot_S512x128_S128x2048_S512x2048_1_0_0_1_n_n 128 rfl rfl).symm k) = ix2 r k := funext fun a => Fin.ext (by
    match a with
    | ⟨0, _⟩ => exact dot_lhs_0 _ _
    | ⟨1, _⟩ => exact (dot_lhs_1 _ _).trans hk)
  have er : dot_S512x128_S128x2048_S512x2048_1_0_0_1_n_n.rhsIdx (ix2 r cl) ((contrEquiv1 dot_S512x128_S128x2048_S512x2048_1_0_0_1_n_n 128 rfl rfl).symm k) = ix2 k cl := funext fun a => Fin.ext (by
    match a with
    | ⟨0, _⟩ => exact (dot_rhs_0 _ _).trans hk
    | ⟨1, _⟩ => exact dot_rhs_1 _ _)
  rw [el, er]

/-! ## Words -/

/-- A select on the bit of an equality of words is the `if` on the equality. -/
theorem select_cmpi_eq {α : Type} (u v : BitVec 32) (A B : α) :
    Scalar.select (IntOp.cmpi .eq u v) A B = if u = v then A else B := by
  unfold Scalar.select IntOp.cmpi
  by_cases h : u = v
  · subst h; simp
  · have hb : (u == v) = false := beq_eq_false_iff_ne.mpr h
    simp [h, hb]

/-! ## The transcendental operations and the integer comparison are pointwise -/

section Pointwise
variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl
theorem cmpi_apply {w : ℕ} (p : CmpIPredicate) (x y : IVec s w) (i : s.Idx) : cmpi p x y i = IntOp.cmpi p (x i) (y i) := rfl
end Pointwise

/-- The logits of row `r` of a block, from the block of samples and the three class operands. -/
def blkLogit (x0 : Vec Ideal S512x128 .f32) (x2 x3 : Vec Ideal S128x2048 .bf16) (x4 : Vec Ideal S1x2048 .f32)
    (r : Fin 512) : Fin 2048 → EReal :=
  Cert.Spec.logitK (Cert.Spec.nrmRow fun f => x0 (ix2 r f)) (fun f c => x2 (ix2 f c)) (fun f c => x3 (ix2 f c))
    (fun c => x4 (ix2 0 c))

/-- The logits the body forms, at row `r` and class `cl`: the row's features scaled to unit length, contracted
    with the two class tables, plus the bias. -/
theorem pay3_apply (v0 : Vec Ideal S512x128 .f32) (v12 v15 : Vec Ideal S128x2048 .bf16) (v18 : Vec Ideal S1x2048 .f32)
    (r : Fin 512) (cl : Fin 2048) :
    k0_pay3 (F := Ideal) v0 v12 v15 v18 (ix2 r cl) = blkLogit v0 v12 v15 v18 r cl := by
  unfold k0_pay3
  simp only [addf_apply, matmul_zero_apply, broadcastTo_1b_ab_apply, shapeCast_self, truncf_apply, mulf_apply, divf_apply,
    broadcastTo_a1_ab_apply, maximumf_apply, sqrt_apply, shapeCast_a_a1_apply, broadcast_apply]
  rw [rowSum_f32_apply]
  simp only [mulf_apply]
  unfold blkLogit Cert.Spec.logitK Cert.Spec.nrmRow Cert.Spec.eps
  rfl

/-- The mask at row `r` and class `cl`: the bit of "the row's label word is the class's number". -/
theorem pay5_apply (v32 : Vec Ideal S512x1 .i32) (r : Fin 512) (cl : Fin 2048) :
    k0_pay5 (F := Ideal) v32 (ix2 r cl) = IntOp.cmpi .eq (v32 (ix2 r 0)) (BitVec.ofNat 32 cl.val) := by
  unfold k0_pay5
  simp only [cmpi_apply, broadcastTo_a1_ab_apply, shapeCast_self]
  rw [iota_single_apply]

/-- The greatest logit of row `r`. -/
theorem rowMax_pay3 (v0 : Vec Ideal S512x128 .f32) (v12 v15 : Vec Ideal S128x2048 .bf16) (v18 : Vec Ideal S1x2048 .f32)
    (hr : S512x2048.Reduces [1] S512) (hφ : FKind.Formats .f32) (hmax : (0xFF800000#32 : BitVec 32) = 0xFF800000#32)
    (r : Fin 512) :
    multiReduction .maximumf [1] S512 (k0_pay3 (F := Ideal) v0 v12 v15 v18) 0xFF800000#32 hr hφ hmax (ix1 r)
      = Cert.Spec.rowmax (blkLogit v0 v12 v15 v18 r) :=
  (rowMax_f32_apply _ hr hφ hmax r).trans
    (congrArg (fun f => (Finset.univ : Finset (Fin 2048)).fold max Cert.Spec.ninf f)
      (funext fun k => pay3_apply v0 v12 v15 v18 r k))

/-- The log-sum-exp of row `r`'s logits. -/
theorem pay4_apply (v0 : Vec Ideal S512x128 .f32) (v12 v15 : Vec Ideal S128x2048 .bf16) (v18 : Vec Ideal S1x2048 .f32)
    (r : Fin 512) (q : Fin 1) :
    k0_pay4 (F := Ideal) v0 v12 v15 v18 (ix2 r q)
      = Cert.Spec.rowmax (blkLogit v0 v12 v15 v18 r)
        + Ideal.log (∑ c : Fin 2048, Ideal.exp (blkLogit v0 v12 v15 v18 r c - Cert.Spec.rowmax (blkLogit v0 v12 v15 v18 r))) := by
  unfold k0_pay4
  refine (addf_apply _ _ _).trans ?_
  refine congrArg₂ (· + ·) ((shapeCast_a_a1_apply _ _ r q).trans (rowMax_pay3 v0 v12 v15 v18 _ _ _ r)) ?_
  refine (log_apply _ _).trans (congrArg Ideal.log ?_)
  refine (shapeCast_a_a1_apply _ _ r q).trans ((rowSum_f32_apply _ _ _ _ r).trans ?_)
  refine Finset.sum_congr rfl fun c _ => ?_
  refine (exp_apply _ _).trans (congrArg Ideal.exp ?_)
  refine (subf_apply _ _ _).trans (congrArg₂ (· - ·) (pay3_apply v0 v12 v15 v18 r c) ?_)
  exact (broadcastTo_a1_ab_apply _ _ r c).trans
    ((shapeCast_a_a1_apply _ _ r 0).trans (rowMax_pay3 v0 v12 v15 v18 _ _ _ r))

/-- The label's logit of row `r`, as the sum of the row masked to the label. -/
theorem pay6_apply (v0 : Vec Ideal S512x128 .f32) (v12 v15 : Vec Ideal S128x2048 .bf16) (v18 : Vec Ideal S1x2048 .f32)
    (v32 : Vec Ideal S512x1 .i32) (r : Fin 512) (q : Fin 1) :
    k0_pay6 (F := Ideal) v0 v12 v15 v18 v32 (ix2 r q)
      = ∑ c : Fin 2048, (if v32 (ix2 r 0) = BitVec.ofNat 32 c.val then blkLogit v0 v12 v15 v18 r c else 0) := by
  unfold k0_pay6
  refine (shapeCast_a_a1_apply _ _ r q).trans ((rowSum_f32_apply _ _ _ _ r).trans ?_)
  refine Finset.sum_congr rfl fun c _ => ?_
  refine (select_apply _ _ _ _).trans ?_
  rw [pay5_apply, pay3_apply, select_cmpi_eq]
  show (if _ then _ else Ideal.ofBits .f32 0x00000000#32) = _
  rw [Ideal.ofBits_zero_f32]

/-- The loss row's entry `r`: the difference of the two columns at row `r`. -/
theorem pay1_apply (v31 v40 : FVec Ideal S512x1 .f32) (r : Fin 512) :
    k0_pay1 (F := Ideal) v31 v40 (ix2 0 r) = v31 (ix2 r 0) - v40 (ix2 r 0) := by
  unfold k0_pay1
  exact (transpose_ix2_apply _ _ 0 r).trans (subf_apply _ _ _)

/-- The matrix result at an index: `1` where the mask is set, the exponential of the scaled logit elsewhere. -/
theorem pay2_apply (v22 : FVec Ideal S512x2048 .f32) (v36 : IVec S512x2048 1) (i : S512x2048.Idx) :
    k0_pay2 (F := Ideal) v22 v36 i = Scalar.select (v36 i) Cert.Spec.c1 (Ideal.exp (Cert.Spec.cK * v22 i)) := rfl

/-- The offsets of a whole-block access are zero. -/
theorem off_zero : (![0, 0] : Fin 2 → Nat) = fun _ => 0 := funext fun a => by fin_cases a <;> rfl

/-- The matrix block after the body, at row `r` and class `cl`. -/
theorem out5_apply (x0 : Vec Ideal S512x128 .f32) (x1 : Vec Ideal S512x1 .i32) (x2 x3 : Vec Ideal S128x2048 .bf16)
    (x4 : Vec Ideal S1x2048 .f32) (r : Fin 512) (cl : Fin 2048) :
    out0_5 (F := Ideal) x0 x1 x2 x3 x4 (ix2 r cl) = Cert.Spec.rowHK (blkLogit x0 x2 x3 x4 r) (x1 (ix2 r 0)) cl := by
  unfold out0_5
  rw [View.canon_unit_zero off_zero]
  simp only [View.ld_unit_zero (S := S512x128) off_zero, View.ld_unit_zero (S := S128x2048) off_zero,
    View.ld_unit_zero (S := S1x2048) off_zero, View.ld_unit_zero (S := S512x1) off_zero]
  rw [pay2_apply, pay5_apply, pay3_apply, select_cmpi_eq]
  rfl

/-- The loss row after the body, at sample `r` of the block. -/
theorem out6_apply (x0 : Vec Ideal S512x128 .f32) (x1 : Vec Ideal S512x1 .i32) (x2 x3 : Vec Ideal S128x2048 .bf16)
    (x4 : Vec Ideal S1x2048 .f32) (r : Fin 512) :
    out0_6 (F := Ideal) x0 x1 x2 x3 x4 (ix2 0 r) = Cert.Spec.rowLossK (blkLogit x0 x2 x3 x4 r) (x1 (ix2 r 0)) := by
  unfold out0_6
  rw [View.canon_unit_zero off_zero]
  simp only [View.ld_unit_zero (S := S512x128) off_zero, View.ld_unit_zero (S := S128x2048) off_zero,
    View.ld_unit_zero (S := S1x2048) off_zero, View.ld_unit_zero (S := S512x1) off_zero]
  rw [pay1_apply, pay4_apply, pay6_apply]
  rfl

end Cert.KernelIdeal.Body

end
-- ==== Proof.KArr.lean ====
/-
  From blocks to arrays. Grid point `t` (of 32) stages rows `512·t … 512·t + 511` of the samples and of the
  clipped label column, and the whole of the two class tables and of the bias row; it writes back rows
  `512·t …` of the matrix result and entries `512·t …` of the loss row. Every row of the results lies in exactly
  the block of the point `row / 512`, so after the run the matrix result is the specification's `HK` of the argument
  arrays and entry `n` of the loss row is the specification's loss of sample `n`.
-/
import proofs.«401288_j57552561766661_2_alg».proof.Proof.KHost
import proofs.«401288_j57552561766661_2_alg».proof.Proof.KBody

noncomputable section

namespace Cert.KernelIdeal.Arr

open Cert.KernelIdeal Cert.KernelIdeal.Gen Cert.KernelIdeal.HostVal Idealize.ShloMosaic Idealize.ShloMosaic.TcCoe Idealize.SL.Sem
open Idealize.ShloMosaic.ValueIdx

variable (m : (ℓ : Loc nD τ sig) → Buf (Elt Ideal) ℓ)

/-! ## The grid and its index maps -/

/-- A grid point is below 32. -/
theorem pt_lt (t : Fin cfg0.N) : t.val < 32 := by
  exact lt_of_lt_of_eq t.isLt N_0

/-- Row `r` of point `t`'s block is sample `512·t + r`. -/
def rowAt (t : Fin cfg0.N) (r : Fin 512) : Fin 16384 :=
  ⟨512 * t.val + r.val, by have := pt_lt t; have := r.isLt; omega⟩

/-- The block index of every window at every point: the samples, the label column and the matrix result move down
    the rows with the point, the loss row moves along its columns, and the class operands stay where they are. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

/-! ## The input blocks, read at an index -/

/-- The block of samples at point `t` is rows `512·t …` of the sample array. -/
theorem blkX (c : Dev nD) (t : Fin cfg0.N) (r : Fin 512) (f : Fin 128) :
    (iblk m c 0 t : Vec Ideal S512x128 .f32) (ix2 r f) = Cert.Spec.curry2 (aX m c) (rowAt t r) f := by
  obtain ⟨e0, e1, -⟩ := idx_facts t
  refine Eq.trans ?_ (congrFun (V_main_arg0 m c) (ix2 (rowAt t r) f))
  show V m c main_arg0 (((cfg0.win 0).blk t).view.emb (ix2 r f)) = V m c main_arg0 (ix2 (rowAt t r) f)
  refine congrArg (V m c main_arg0) ?_
  funext a
  apply Fin.ext
  match a with
  | ⟨0, _⟩ => show win0_0.index t (0 : Fin 2) * 512 + 1 * r.val = 512 * t.val + r.val; omega
  | ⟨1, _⟩ => show win0_0.index t (1 : Fin 2) * 128 + 1 * f.val = f.val; omega

/-- The block of the label column at point `t` is rows `512·t …` of the clipped labels. -/
theorem blkT (c : Dev nD) (t : Fin cfg0.N) (r : Fin 512) :
    (iblk m c 1 t : Vec Ideal S512x1 .i32) (ix2 r 0) = Cert.Spec.clipT (Cert.Spec.curry1 (aT m c) (rowAt t r)) := by
  obtain ⟨-, -, e0, e1, -⟩ := idx_facts t
  refine Eq.trans ?_ (V_v24 m c (rowAt t r))
  show V m c main_v24 (((cfg0.win 1).blk t).view.emb (ix2 r 0)) = V m c main_v24 (ix2 (rowAt t r) 0)
  refine congrArg (V m c main_v24) ?_
  funext a
  apply Fin.ext
  match a with
  | ⟨0, _⟩ => show win0_1.index t (0 : Fin 2) * 512 + 1 * r.val = 512 * t.val + r.val; omega
  | ⟨1, _⟩ => show win0_1.index t (1 : Fin 2) * 1 + 1 * 0 = 0; omega

/-- The first class table is staged whole at every point. -/
theorem blkW1 (c : Dev nD) (t : Fin cfg0.N) (f : Fin 128) (k : Fin 2048) :
    (iblk m c 2 t : Vec Ideal S128x2048 .bf16) (ix2 f k) = Cert.Spec.W1 (Cert.Spec.curry2 (aLV m c)) f k := by
  obtain ⟨-, -, -, -, e0, e1, -⟩ := idx_facts t
  refine Eq.trans ?_ (V_v15 m c f k)
  show V m c main_v15 (((cfg0.win 2).blk t).view.emb (ix2 f k)) = V m c main_v15 (ix2 f k)
  refine congrArg (V m c main_v15) ?_
  funext a
  apply Fin.ext
  match a with
  | ⟨0, _⟩ => show win0_2.index t (0 : Fin 2) * 128 + 1 * f.val = f.val; omega
  | ⟨1, _⟩ => show win0_2.index t (1 : Fin 2) * 2048 + 1 * k.val = k.val; omega

/-- So is the second class table. -/
theorem blkW2 (c : Dev nD) (t : Fin cfg0.N) (f : Fin 128) (k : Fin 2048) :
    (iblk m c 3 t : Vec Ideal S128x2048 .bf16) (ix2 f k)
      = Cert.Spec.W2 (Cert.Spec.curry2 (aM m c)) (Cert.Spec.curry2 (aLV m c)) f k := by
  obtain ⟨-, -, -, -, -, -, e0, e1, -⟩ := idx_facts t
  refine Eq.trans ?_ (V_v19 m c f k)
  show V m c main_v19 (((cfg0.win 3).blk t).view.emb (ix2 f k)) = V m c main_v19 (ix2 f k)
  refine congrArg (V m c main_v19) ?_
  funext a
  apply Fin.ext
  match a with
  | ⟨0, _⟩ => show win0_3.index t (0 : Fin 2) * 128 + 1 * f.val = f.val; omega
  | ⟨1, _⟩ => show win0_3.index t (1 : Fin 2) * 2048 + 1 * k.val = k.val; omega

/-- And the bias row. -/
theorem blkB (c : Dev nD) (t : Fin cfg0.N) (k : Fin 2048) :
    (iblk m c 4 t : Vec Ideal S1x2048 .f32) (ix2 0 k)
      = Cert.Spec.bK (Cert.Spec.curry2 (aM m c)) (Cert.Spec.curry2 (aLV m c)) k := by
  obtain ⟨-, -, -, -, -, -, -, -, e0, e1, -⟩ := idx_facts t
  refine Eq.trans ?_ (V_v22 m c k)
  show V m c main_v22 (((cfg0.win 4).blk t).view.emb (ix2 0 k)) = V m c main_v22 (ix2 0 k)
  refine congrArg (V m c main_v22) ?_
  funext a
  apply Fin.ext
  match a with
  | ⟨0, _⟩ => show win0_4.index t (0 : Fin 2) * 1 + 1 * 0 = 0; omega
  | ⟨1, _⟩ => show win0_4.index t (1 : Fin 2) * 2048 + 1 * k.val = k.val; omega

/-! ## One point's two output blocks, over any input blocks read as the specification's operands -/

/-- The logits of row `r` of a block whose operands are read as `X`, `A`, `B`, `b`. -/
theorem blkLogit_of (x0 : Vec Ideal S512x128 .f32) (x2 x3 : Vec Ideal S128x2048 .bf16) (x4 : Vec Ideal S1x2048 .f32)
    (r : Fin 512) (X : Fin 128 → EReal) (A B : Fin 128 → Fin 2048 → EReal) (b : Fin 2048 → EReal)
    (h0 : ∀ f, x0 (ix2 r f) = X f) (h2 : ∀ f k, x2 (ix2 f k) = A f k) (h3 : ∀ f k, x3 (ix2 f k) = B f k)
    (h4 : ∀ k, x4 (ix2 0 k) = b k) :
    Body.blkLogit x0 x2 x3 x4 r = Cert.Spec.logitK (Cert.Spec.nrmRow X) A B b := by
  unfold Body.blkLogit
  rw [show (fun f => x0 (ix2 r f)) = X from funext h0,
    show (fun f k => x2 (ix2 f k)) = A from funext fun f => funext (h2 f),
    show (fun f k => x3 (ix2 f k)) = B from funext fun f => funext (h3 f),
    show (fun k => x4 (ix2 0 k)) = b from funext h4]

/-- The matrix block at row `r` and class `cl`. -/
theorem out5_of (x0 : Vec Ideal S512x128 .f32) (x1 : Vec Ideal S512x1 .i32) (x2 x3 : Vec Ideal S128x2048 .bf16)
    (x4 : Vec Ideal S1x2048 .f32) (r : Fin 512) (cl : Fin 2048) (X : Fin 128 → EReal)
    (A B : Fin 128 → Fin 2048 → EReal) (b : Fin 2048 → EReal) (w : BitVec 32)
    (h0 : ∀ f, x0 (ix2 r f) = X f) (h1 : x1 (ix2 r 0) = w) (h2 : ∀ f k, x2 (ix2 f k) = A f k)
    (h3 : ∀ f k, x3 (ix2 f k) = B f k) (h4 : ∀ k, x4 (ix2 0 k) = b k) :
    out0_5 (F := Ideal) x0 x1 x2 x3 x4 (ix2 r cl) = Cert.Spec.rowHK (Cert.Spec.logitK (Cert.Spec.nrmRow X) A B b) w cl := by
  rw [Body.out5_apply, h1, blkLogit_of x0 x2 x3 x4 r X A B b h0 h2 h3 h4]

/-- The loss block at entry `r`. -/
theorem out6_of (x0 : Vec Ideal S512x128 .f32) (x1 : Vec Ideal S512x1 .i32) (x2 x3 : Vec Ideal S128x2048 .bf16)
    (x4 : Vec Ideal S1x2048 .f32) (r : Fin 512) (X : Fin 128 → EReal)
    (A B : Fin 128 → Fin 2048 → EReal) (b : Fin 2048 → EReal) (w : BitVec 32)
    (h0 : ∀ f, x0 (ix2 r f) = X f) (h1 : x1 (ix2 r 0) = w) (h2 : ∀ f k, x2 (ix2 f k) = A f k)
    (h3 : ∀ f k, x3 (ix2 f k) = B f k) (h4 : ∀ k, x4 (ix2 0 k) = b k) :
    out0_6 (F := Ideal) x0 x1 x2 x3 x4 (ix2 0 r) = Cert.Spec.rowLossK (Cert.Spec.logitK (Cert.Spec.nrmRow X) A B b) w := by
  rw [Body.out6_apply, h1, blkLogit_of x0 x2 x3 x4 r X A B b h0 h2 h3 h4]

/-! ## The matrix result -/

/-- What the matrix result ends holding. -/
abbrev G5 (c : Dev nD) : S16384x2048.Idx → EReal := Cert.Spec.HKarr (aX m c) (aT m c) (aM m c) (aLV m c)

/-- It at an index whose row is `n` and whose column is `cl`. -/
theorem G5_at (c : Dev nD) (i : S16384x2048.Idx) (n : Fin 16384) (cl : Fin 2048) (h0 : (i 0).val = n.val)
    (h1 : (i 1).val = cl.val) :
    G5 m c i = Cert.Spec.rowHK (Cert.Spec.logitK (Cert.Spec.nrmRow (Cert.Spec.curry2 (aX m c) n))
        (Cert.Spec.W1 (Cert.Spec.curry2 (aLV m c))) (Cert.Spec.W2 (Cert.Spec.curry2 (aM m c)) (Cert.Spec.curry2 (aLV m c)))
        (Cert.Spec.bK (Cert.Spec.curry2 (aM m c)) (Cert.Spec.curry2 (aLV m c))))
      (Cert.Spec.clipT (Cert.Spec.curry1 (aT m c) n)) cl := by
  have e0 : i 0 = n := Fin.ext h0
  have e1 : i 1 = cl := Fin.ext h1
  show Cert.Spec.HK _ _ _ _ (i 0) (i 1) = _
  rw [e0, e1]
  rfl

/-- What point `t` writes back is block `t` of it. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  obtain ⟨-, -, -, -, -, -, -, -, -, -, e0, e1, -⟩ := idx_facts t
  funext j
  have hj0 : (j 0).val < 512 := (j 0).isLt
  have hj1 : (j 1).val < 2048 := (j 1).isLt
  have hj : (cfg0.win 5).xinj (grid0.coords t) j = ix2 (⟨(j 0).val, hj0⟩ : Fin 512) (⟨(j 1).val, hj1⟩ : Fin 2048) := by
    funext a
    match a with
    | ⟨0, _⟩ => rfl
    | ⟨1, _⟩ => rfl
  show out0_5 (F := Ideal) (iblk m c 0 t) (iblk m c 1 t) (iblk m c 2 t) (iblk m c 3 t) (iblk m c 4 t)
      ((cfg0.win 5).xinj (grid0.coords t) j) = G5 m c (((cfg0.win 5).blk t).view.emb j)
  refine (congrArg (out0_5 (F := Ideal) (iblk m c 0 t) (iblk m c 1 t) (iblk m c 2 t) (iblk m c 3 t) (iblk m c 4 t)) hj).trans ?_
  refine (out5_of (iblk m c 0 t) (iblk m c 1 t) (iblk m c 2 t) (iblk m c 3 t) (iblk m c 4 t) ⟨(j 0).val, hj0⟩ ⟨(j 1).val, hj1⟩
    (Cert.Spec.curry2 (aX m c) (rowAt t ⟨(j 0).val, hj0⟩))
    (Cert.Spec.W1 (Cert.Spec.curry2 (aLV m c))) (Cert.Spec.W2 (Cert.Spec.curry2 (aM m c)) (Cert.Spec.curry2 (aLV m c)))
    (Cert.Spec.bK (Cert.Spec.curry2 (aM m c)) (Cert.Spec.curry2 (aLV m c)))
    (Cert.Spec.clipT (Cert.Spec.curry1 (aT m c) (rowAt t ⟨(j 0).val, hj0⟩)))
    (fun f => blkX m c t _ f) (blkT m c t _) (fun f k => blkW1 m c t f k) (fun f k => blkW2 m c t f k)
    (fun k => blkB m c t k)).trans ?_
  refine (G5_at m c _ (rowAt t ⟨(j 0).val, hj0⟩) ⟨(j 1).val, hj1⟩ ?_ ?_).symm
  · show win0_5.index t (0 : Fin 2) * 512 + 1 * (j 0).val = 512 * t.val + (j 0).val; omega
  · show win0_5.index t (1 : Fin 2) * 2048 + 1 * (j 1).val = (j 1).val; omega

/-- An index of the matrix result is in point `t`'s block iff each coordinate is in the block's range on its axis. -/
theorem mem_blk5 (t : Fin cfg0.N) (i : S16384x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v25_0).slice (win0_5.rect t)).set ↔ _
  rw [View.set_slice_whole, Rect.mem_set_unit]
  exact Iff.rfl

/-- Row `n` lies in the block of point `n / 512`. -/
theorem cover5 (i : S16384x2048.Idx) :
    ∃ t : Fin cfg0.N, (cfg0.win 5).flush t = true ∧ i ∈ ((cfg0.win 5).blk t).view.set := by
  have hi0 : (i 0).val < 16384 := idx2_lt0 i
  have hi1 : (i 1).val < 2048 := idx2_lt1 i
  have ht : (i 0).val / 512 < cfg0.N := by rw [show cfg0.N = 32 from N_0]; omega
  refine ⟨⟨(i 0).val / 512, ht⟩, flush0_5 _, ?_⟩
  obtain ⟨-, -, -, -, -, -, -, -, -, -, e0, e1, -⟩ := idx_facts ⟨(i 0).val / 512, ht⟩
  have e0' : win0_5.index ⟨(i 0).val / 512, ht⟩ (0 : Fin 2) = (i 0).val / 512 := e0
  rw [mem_blk5]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    omega
  | ⟨1, _⟩ =>
    show win0_5.index ⟨(i 0).val / 512, ht⟩ (1 : Fin 2) * 2048 ≤ (i 1).val
      ∧ (i 1).val < win0_5.index ⟨(i 0).val / 512, ht⟩ (1 : Fin 2) * 2048 + 2048
    omega

/-- The matrix result after the run. -/
theorem final5 (c : Dev nD) :
    ((dats m 0 c).arrAt 5 cfg0.N : S16384x2048.Idx → EReal) = Cert.Spec.HKarr (aX m c) (aT m c) (aM m c) (aLV m c) :=
  (dats m 0 c).arrAt_eq_of_cover 5 (G5 m c) (fun t _ => flushed5_eq m c t) cover5

/-! ## The loss row -/

/-- What the loss row ends holding: entry `n` is the loss of sample `n`. -/
abbrev G6 (c : Dev nD) : S1x16384.Idx → EReal := fun i =>
  Cert.Spec.lossK (Cert.Spec.curry2 (aX m c)) (fun n => Cert.Spec.clipT (Cert.Spec.curry1 (aT m c) n))
    (Cert.Spec.curry2 (aM m c)) (Cert.Spec.curry2 (aLV m c)) (i 1)

/-- It at an index whose column is `n`. -/
theorem G6_at (c : Dev nD) (i : S1x16384.Idx) (n : Fin 16384) (h1 : (i 1).val = n.val) :
    G6 m c i = Cert.Spec.rowLossK (Cert.Spec.logitK (Cert.Spec.nrmRow (Cert.Spec.curry2 (aX m c) n))
        (Cert.Spec.W1 (Cert.Spec.curry2 (aLV m c))) (Cert.Spec.W2 (Cert.Spec.curry2 (aM m c)) (Cert.Spec.curry2 (aLV m c)))
        (Cert.Spec.bK (Cert.Spec.curry2 (aM m c)) (Cert.Spec.curry2 (aLV m c))))
      (Cert.Spec.clipT (Cert.Spec.curry1 (aT m c) n)) := by
  have e1 : i 1 = n := Fin.ext h1
  show Cert.Spec.lossK _ _ _ _ (i 1) = _
  rw [e1]
  rfl

/-- What point `t` writes back is block `t` of it. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  obtain ⟨-, -, -, -, -, -, -, -, -, -, -, -, e0, e1⟩ := idx_facts t
  funext j
  have hj0 : (j 0).val < 1 := (j 0).isLt
  have hj1 : (j 1).val < 512 := (j 1).isLt
  have hj : (cfg0.win 6).xinj (grid0.coords t) j = ix2 (0 : Fin 1) (⟨(j 1).val, hj1⟩ : Fin 512) := by
    funext a
    match a with
    | ⟨0, _⟩ => exact Fin.ext (by show (j 0).val = 0; omega)
    | ⟨1, _⟩ => rfl
  show out0_6 (F := Ideal) (iblk m c 0 t) (iblk m c 1 t) (iblk m c 2 t) (iblk m c 3 t) (iblk m c 4 t)
      ((cfg0.win 6).xinj (grid0.coords t) j) = G6 m c (((cfg0.win 6).blk t).view.emb j)
  refine (congrArg (out0_6 (F := Ideal) (iblk m c 0 t) (iblk m c 1 t) (iblk m c 2 t) (iblk m c 3 t) (iblk m c 4 t)) hj).trans ?_
  refine (out6_of (iblk m c 0 t) (iblk m c 1 t) (iblk m c 2 t) (iblk m c 3 t) (iblk m c 4 t) ⟨(j 1).val, hj1⟩
    (Cert.Spec.curry2 (aX m c) (rowAt t ⟨(j 1).val, hj1⟩))
    (Cert.Spec.W1 (Cert.Spec.curry2 (aLV m c))) (Cert.Spec.W2 (Cert.Spec.curry2 (aM m c)) (Cert.Spec.curry2 (aLV m c)))
    (Cert.Spec.bK (Cert.Spec.curry2 (aM m c)) (Cert.Spec.curry2 (aLV m c)))
    (Cert.Spec.clipT (Cert.Spec.curry1 (aT m c) (rowAt t ⟨(j 1).val, hj1⟩)))
    (fun f => blkX m c t _ f) (blkT m c t _) (fun f k => blkW1 m c t f k) (fun f k => blkW2 m c t f k)
    (fun k => blkB m c t k)).trans ?_
  refine (G6_at m c _ (rowAt t ⟨(j 1).val, hj1⟩) ?_).symm
  show win0_6.index t (1 : Fin 2) * 512 + 1 * (j 1).val = 512 * t.val + (j 1).val; omega

/-- An index of the loss row is in point `t`'s block iff each coordinate is in the block's range on its axis. -/
theorem mem_blk6 (t : Fin cfg0.N) (i : S1x16384.Idx) :
    i ∈ ((cfg0.win 6).blk t).view.set ↔ ∀ a : Fin 2, win0_6.index t a * S1x512.size a ≤ (i a).val
      ∧ (i a).val < win0_6.index t a * S1x512.size a + S1x512.size a := by
  show i ∈ ((View.whole main_v25_1).slice (win0_6.rect t)).set ↔ _
  rw [View.set_slice_whole, Rect.mem_set_unit]
  exact Iff.rfl

/-- Entry `n` lies in the block of point `n / 512`. -/
theorem cover6 (i : S1x16384.Idx) :
    ∃ t : Fin cfg0.N, (cfg0.win 6).flush t = true ∧ i ∈ ((cfg0.win 6).blk t).view.set := by
  have hi0 : (i 0).val < 1 := idx2_lt0 i
  have hi1 : (i 1).val < 16384 := idx2_lt1 i
  have ht : (i 1).val / 512 < cfg0.N := by rw [show cfg0.N = 32 from N_0]; omega
  refine ⟨⟨(i 1).val / 512, ht⟩, flush0_6 _, ?_⟩
  obtain ⟨-, -, -, -, -, -, -, -, -, -, -, -, e0, e1⟩ := idx_facts ⟨(i 1).val / 512, ht⟩
  have e1' : win0_6.index ⟨(i 1).val / 512, ht⟩ (1 : Fin 2) = (i 1).val / 512 := e1
  rw [mem_blk6]
  intro a
  match a with
  | ⟨0, _⟩ =>
    show win0_6.index ⟨(i 1).val / 512, ht⟩ (0 : Fin 2) * 1 ≤ (i 0).val
      ∧ (i 0).val < win0_6.index ⟨(i 1).val / 512, ht⟩ (0 : Fin 2) * 1 + 1
    omega
  | ⟨1, _⟩ =>
    show win0_6.index ⟨(i 1).val / 512, ht⟩ (1 : Fin 2) * 512 ≤ (i 1).val
      ∧ (i 1).val < win0_6.index ⟨(i 1).val / 512, ht⟩ (1 : Fin 2) * 512 + 512
    omega

/-- The loss row after the run, entry by entry. -/
theorem final6 (c : Dev nD) (n : Fin 16384) :
    ((dats m 0 c).arrAt 6 cfg0.N : S1x16384.Idx → EReal) (ix2 0 n)
      = Cert.Spec.lossK (Cert.Spec.curry2 (aX m c)) (fun n => Cert.Spec.clipT (Cert.Spec.curry1 (aT m c) n))
          (Cert.Spec.curry2 (aM m c)) (Cert.Spec.curry2 (aLV m c)) n :=
  congrFun ((dats m 0 c).arrAt_eq_of_cover 6 (G6 m c) (fun t _ => flushed6_eq m c t) cover6) (ix2 0 n)

end Cert.KernelIdeal.Arr

end
-- ==== Proof.KRun.lean ====
/-
  The idealized kernel program's run with its two results named: the matrix result is the array the region
  leaves, and the scalar result is the host's sum of the loss row divided by the number of samples, which is the
  specification's mean loss.
-/
import proofs.«401288_j57552561766661_2_alg».proof.Proof.KArr
import Idealize.ShloMosaic.Lib.StableHlo.Run
import Idealize.ShloMosaic.PureOps.Ideal.Laws

noncomputable section

namespace Cert.KernelIdeal.ValueRun

open Cert.KernelIdeal Cert.KernelIdeal.Gen Cert.KernelIdeal.HostVal Idealize.ShloMosaic Idealize.ShloMosaic.TcCoe Idealize.SL.Sem
open Idealize.ShloMosaic.ValueIdx

variable (m : (ℓ : Loc nD τ sig) → Buf (Elt Ideal) ℓ) (ρ : Dev nD → PrngReg)

/-- The host's mean of a row: the sum over every index of a `[1, 16384]` array whose entry `n` is `L n`, started
    from zero and divided by `16384`, is `(Σ_n L n) / 16384`. The one row index contributes a sum of one term. -/
theorem mean_of_row (arr : FVec Ideal S1x16384 .f32) (L : Fin 16384 → EReal) (h : ∀ n, arr (ix2 0 n) = L n) :
    Host.divf (Host.reduceAdd arr (constant (F := Ideal) S_ .f32 0x00000000#32) reducesTo_S1x16384_S_d0_1 h_S_)
        (constant (F := Ideal) S_ .f32 0x46800000#32)
      = fun _ => Ideal.div (∑ n : Fin 16384, L n) Cert.Spec.cN := by
  funext i
  show Ideal.div (Host.reduceAdd arr (constant (F := Ideal) S_ .f32 0x00000000#32) reducesTo_S1x16384_S_d0_1 h_S_ i)
      (Ideal.ofBits .f32 0x46800000#32) = _
  refine congrArg (fun x => Ideal.div x Cert.Spec.cN) ?_
  simp only [Host.reduceAdd, Ideal.hostReduceAdd_def]
  rw [Ideal.hostReduceAdd_total reducesTo_S1x16384_S_d0_1 (fun b => b.elim0) arr _ i]
  show Ideal.ofBits .f32 0x00000000#32 + _ = _
  rw [Ideal.ofBits_zero_f32, zero_add, sum_idx2, Fin.sum_univ_one]
  exact Finset.sum_congr rfl fun n _ => h n

/-- The scalar result: the lines after the region sum the loss row the region left and divide by the number of
    samples. -/
theorem tail_mean (c : Dev nD) :
    Pipeline.afterTail₀ cfgs (dats m) 0 (V0 m) [hostOps1] c main_v27
      = Cert.Spec.meanKarr (aX m c) (aT m c) (aM m c) (aLV m c) := by
  unfold Pipeline.afterTail₀
  show StableHlo.after hostOps1 _ (Proc.devRef .tc main_v27) = _
  after_results
  refine (mean_of_row _ (Cert.Spec.lossK (Cert.Spec.curry2 (aX m c)) (fun n => Cert.Spec.clipT (Cert.Spec.curry1 (aT m c) n))
    (Cert.Spec.curry2 (aM m c)) (Cert.Spec.curry2 (aLV m c))) fun n => ?_).trans rfl
  exact (congrFun (Pipeline.withArrays_arr spec0 launch0.win.arr_inj c _ _ 6) (ix2 0 n)).trans (Arr.final6 m c n)

/-- Every weakly fair execution terminates with the two results at the specification's functions of the argument
    arrays, and the arguments unchanged. -/
theorem run : θ_run defs (onTc (τ := τ) (main (F := Ideal))) ⟨m, fun _ => 0, ρ⟩ (fun r => ∀ c : Dev nD,
      r.2.mem ((c.tc : Thread nD τ).loc main_v27) = Cert.Spec.meanKarr (aX m c) (aT m c) (aM m c) (aLV m c)
      ∧ r.2.mem ((c.tc : Thread nD τ).loc main_v25_0) = Cert.Spec.HKarr (aX m c) (aT m c) (aM m c) (aLV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v27 (Pipeline.mem_restRefs_of main_v27 (by decide) (by decide))).trans (tail_mean m c),
      ((h c).1 5).trans (Arr.final5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ValueRun

end
-- ==== Proof.RefRunVal.lean ====
/-
  The reference program's run, read stage by stage. Its 102 host operations are cut into four stretches: the
  distance and the logits; the row-wise log-softmax; the two index columns of the gather; and, from the gather's
  index array on, the mean loss and the matrix result. After each stretch the buffers the later stretches read hold
  the stage functions of the argument arrays, so every weakly fair execution ends with the two results at their
  stages and the arguments unchanged.
-/
import proofs.«401288_j57552561766661_2_alg».proof.Proof.RefRead
import Idealize.ShloMosaic.Lib.StableHlo.Run
import Idealize.ShloMosaic.Lib.Pipeline.Frame

noncomputable section

namespace Cert.ReferenceIdeal.RunVal

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 1–48: up to the logits. -/
abbrev ops1 : List (HloOp τ sig (Elt F)) :=
  [ nullary main_cst (constant S_ .f32 0x00000000#32),
    nullary main_cst_0 (constant S_ .f32 0x40C00000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S2048x128, .f32⟩) main_call0_v1) (broadcastInDim S2048x128 ![] bcast_S_S2048x128),
    TRef.binary (TRef.of (T := ⟨S2048x128, .f32⟩) main_call0_v1) (TRef.of (T := ⟨S2048x128, .f32⟩) main_arg3) (TRef.of (T := ⟨S2048x128, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S2048x128, .f32⟩) main_call0_v4) (broadcastInDim S2048x128 ![] bcast_S_S2048x128),
    TRef.binary (TRef.of (T := ⟨S2048x128, .f32⟩) main_call0_v4) (TRef.of (T := ⟨S2048x128, .f32⟩) main_call0_v2) (TRef.of (T := ⟨S2048x128, .f32⟩) main_v0) minimumf,
    TRef.binary (TRef.of (T := ⟨S16384x128, .f32⟩) main_arg0) (TRef.of (T := ⟨S16384x128, .f32⟩) main_arg0) (TRef.of (T := ⟨S16384x128, .f32⟩) main_call1_v0) mulf,
    TRef.nullary (TRef.of (T := ⟨S_, .f32⟩) main_call1_cst) (constant S_ .f32 0x00000000#32),
    TRef.binary (TRef.of (T := ⟨S16384x128, .f32⟩) main_call1_v0) (TRef.of (T := ⟨S_, .f32⟩) main_call1_cst) (TRef.of (T := ⟨S16384, .f32⟩) main_call1_v1) (fun x v => Host.reduceAdd x v reducesTo_S16384x128_S16384_d1 h_S_),
    TRef.unary (TRef.of (T := ⟨S16384, .f32⟩) main_call1_v1) (TRef.of (T := ⟨S16384x1, .f32⟩) main_call1_v2) (broadcastInDim S16384x1 ![0] bcast_S16384_S16384x1_0),
    TRef.unary (TRef.of (T := ⟨S16384x1, .f32⟩) main_call1_v2) (TRef.of (T := ⟨S16384x1, .f32⟩) main_v1) Host.sqrt,
    nullary main_cst_1 (constant S_ .f32 0x2B8CBCCC#32),
    unary main_cst_1 main_v2 (broadcastInDim S16384x1 ![] bcast_S_S16384x1 : (⟨S_, .f32⟩ : BufTy).Contents (Elt F) → (⟨S16384x1, .f32⟩ : BufTy).Contents (Elt F)),
    binary main_v1 main_v2 main_v3 (maximumf : (⟨S16384x1, .f32⟩ : BufTy).Contents (Elt F) → (⟨S16384x1, .f32⟩ : BufTy).Contents (Elt F) → (⟨S16384x1, .f32⟩ : BufTy).Contents (Elt F)),
    unary main_v3 main_v4 (broadcastInDim S16384x128 ![0, 1] bcast_S16384x1_S16384x128_0_1 : (⟨S16384x1, .f32⟩ : BufTy).Contents (Elt F) → (⟨S16384x128, .f32⟩ : BufTy).Contents (Elt F)),
    binary main_arg0 main_v4 main_v5 (Host.divf : (⟨S16384x128, .f32⟩ : BufTy).Contents (Elt F) → (⟨S16384x128, .f32⟩ : BufTy).Contents (Elt F) → (⟨S16384x128, .f32⟩ : BufTy).Contents (Elt F)),
    TRef.binary (TRef.of (T := ⟨S2048x128, .f32⟩) main_arg2) (TRef.of (T := ⟨S2048x128, .f32⟩) main_arg2) (TRef.of (T := ⟨S2048x128, .f32⟩) main_call2_v0) mulf,
    TRef.nullary (TRef.of (T := ⟨S_, .f32⟩) main_call2_cst) (constant S_ .f32 0x00000000#32),
    TRef.binary (TRef.of (T := ⟨S2048x128, .f32⟩) main_call2_v0) (TRef.of (T := ⟨S_, .f32⟩) main_call2_cst) (TRef.of (T := ⟨S2048, .f32⟩) main_call2_v1) (fun x v => Host.reduceAdd x v reducesTo_S2048x128_S2048_d1 h_S_),
    TRef.unary (TRef.of (T := ⟨S2048, .f32⟩) main_call2_v1) (TRef.of (T := ⟨S2048x1, .f32⟩) main_call2_v2) (broadcastInDim S2048x1 ![0] bcast_S2048_S2048x1_0),
    TRef.unary (TRef.of (T := ⟨S2048x1, .f32⟩) main_call2_v2) (TRef.of (T := ⟨S2048x1, .f32⟩) main_v6) Host.sqrt,
    nullary main_cst_2 (constant S_ .f32 0x2B8CBCCC#32),
    unary main_cst_2 main_v7 (broadcastInDim S2048x1 ![] bcast_S_S2048x1 : (⟨S_, .f32⟩ : BufTy).Contents (Elt F) → (⟨S2048x1, .f32⟩ : BufTy).Contents (Elt F)),
    binary main_v6 main_v7 main_v8 (maximumf : (⟨S2048x1, .f32⟩ : BufTy).Contents (Elt F) → (⟨S2048x1, .f32⟩ : BufTy).Contents (Elt F) → (⟨S2048x1, .f32⟩ : BufTy).Contents (Elt F)),
    unary main_v8 main_v9 (broadcastInDim S2048x128 ![0, 1] bcast_S2048x1_S2048x128_0_1 : (⟨S2048x1, .f32⟩ : BufTy).Contents (Elt F) → (⟨S2048x128, .f32⟩ : BufTy).Contents (Elt F)),
    binary main_arg2 main_v9 main_v10 (Host.divf : (⟨S2048x128, .f32⟩ : BufTy).Contents (Elt F) → (⟨S2048x128, .f32⟩ : BufTy).Contents (Elt F) → (⟨S2048x128, .f32⟩ : BufTy).Contents (Elt F)),
    unary main_v0 main_v11 (Host.negf : (⟨S2048x128, .f32⟩ : BufTy).Contents (Elt F) → (⟨S2048x128, .f32⟩ : BufTy).Contents (Elt F)),
    unary main_v11 main_v12 (Host.exp : (⟨S2048x128, .f32⟩ : BufTy).Contents (Elt F) → (⟨S2048x128, .f32⟩ : BufTy).Contents (Elt F)),
    binary main_v5 main_v5 main_v13 (mulf : (⟨S16384x128, .f32⟩ : BufTy).Contents (Elt F) → (⟨S16384x128, .f32⟩ : BufTy).Contents (Elt F) → (⟨S16384x128, .f32⟩ : BufTy).Contents (Elt F)),
    binary main_v13 main_v12 main_v14 ((fun l r => Host.dotGeneral dot_S16384x128_S2048x128_S16384x2048_1_1_0_0_n_n none l r) : (⟨S16384x128, .f32⟩ : BufTy).Contents (Elt F) → (⟨S2048x128, .f32⟩ : BufTy).Contents (Elt F) → (⟨S16384x2048, .f32⟩ : BufTy).Contents (Elt F)),
    binary main_v10 main_v12 main_v15 (mulf : (⟨S2048x128, .f32⟩ : BufTy).Contents (Elt F) → (⟨S2048x128, .f32⟩ : BufTy).Contents (Elt F) → (⟨S2048x128, .f32⟩ : BufTy).Contents (Elt F)),
    binary main_v5 main_v15 main_v16 ((fun l r => Host.dotGeneral dot_S16384x128_S2048x128_S16384x2048_1_1_0_0_n_n none l r) : (⟨S16384x128, .f32⟩ : BufTy).Contents (Elt F) → (⟨S2048x128, .f32⟩ : BufTy).Contents (Elt F) → (⟨S16384x2048, .f32⟩ : BufTy).Contents (Elt F)),
    nullary main_cst_3 (constant S_ .f32 0x40000000#32),
    unary main_cst_3 main_v17 (broadcastInDim S16384x2048 ![] bcast_S_S16384x2048 : (⟨S_, .f32⟩ : BufTy).Contents (Elt F) → (⟨S16384x2048, .f32⟩ : BufTy).Contents (Elt F)),
    binary main_v17 main_v16 main_v18 (mulf : (⟨S16384x2048, .f32⟩ : BufTy).Contents (Elt F) → (⟨S16384x2048, .f32⟩ : BufTy).Contents (Elt F) → (⟨S16384x2048, .f32⟩ : BufTy).Contents (Elt F)),
    binary main_v14 main_v18 main_v19 (subf : (⟨S16384x2048, .f32⟩ : BufTy).Contents (Elt F) → (⟨S16384x2048, .f32⟩ : BufTy).Contents (Elt F) → (⟨S16384x2048, .f32⟩ : BufTy).Contents (Elt F)),
    binary main_v10 main_v10 main_v20 (mulf : (⟨S2048x128, .f32⟩ : BufTy).Contents (Elt F) → (⟨S2048x128, .f32⟩ : BufTy).Contents (Elt F) → (⟨S2048x128, .f32⟩ : BufTy).Contents (Elt F)),
    binary main_v20 main_v12 main_v21 (mulf : (⟨S2048x128, .f32⟩ : BufTy).Contents (Elt F) → (⟨S2048x128, .f32⟩ : BufTy).Contents (Elt F) → (⟨S2048x128, .f32⟩ : BufTy).Contents (Elt F)),
    nullary main_cst_4 (constant S_ .f32 0x00000000#32),
    binary main_v21 main_cst_4 main_v22 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_v22 main_v23 (broadcastInDim S1x2048 ![1] bcast_S2048_S1x2048_1 : (⟨S2048, .f32⟩ : BufTy).Contents (Elt F) → (⟨S1x2048, .f32⟩ : BufTy).Contents (Elt F)),
    unary main_v23 main_v24 (broadcastInDim S16384x2048 ![0, 1] bcast_S1x2048_S16384x2048_0_1 : (⟨S1x2048, .f32⟩ : BufTy).Contents (Elt F) → (⟨S16384x2048, .f32⟩ : BufTy).Contents (Elt F)),
    binary main_v19 main_v24 main_v25 (addf : (⟨S16384x2048, .f32⟩ : BufTy).Contents (Elt F) → (⟨S16384x2048, .f32⟩ : BufTy).Contents (Elt F) → (⟨S16384x2048, .f32⟩ : BufTy).Contents (Elt F)),
    nullary main_cst_5 (constant S_ .f32 0xC2000000#32),
    unary main_cst_5 main_v26 (broadcastInDim S16384x2048 ![] bcast_S_S16384x2048 : (⟨S_, .f32⟩ : BufTy).Contents (Elt F) → (⟨S16384x2048, .f32⟩ : BufTy).Contents (Elt F)),
    binary main_v26 main_v25 main_v27 (mulf : (⟨S16384x2048, .f32⟩ : BufTy).Contents (Elt F) → (⟨S16384x2048, .f32⟩ : BufTy).Contents (Elt F) → (⟨S16384x2048, .f32⟩ : BufTy).Contents (Elt F)) ]

/-- Operations 49–63: the row-wise log-softmax. -/
abbrev ops2 : List (HloOp τ sig (Elt F)) :=
  [ TRef.nullary (TRef.of (T := ⟨S_, .f32⟩) main_call3_cst) (constant S_ .f32 0xFF800000#32),
    TRef.binary (TRef.of (T := ⟨S16384x2048, .f32⟩) main_v27) (TRef.of (T := ⟨S_, .f32⟩) main_call3_cst) (TRef.of (T := ⟨S16384, .f32⟩) main_call3_v0) (fun x v => Host.reduce FloatOps.maximumf x v reducesTo_S16384x2048_S16384_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S16384, .f32⟩) main_call3_v1) (broadcastInDim S16384 ![] bcast_S_S16384),
    TRef.binary (TRef.of (T := ⟨S16384, .f32⟩) main_call3_v1) (TRef.of (T := ⟨S16384, .f32⟩) main_call3_v0) (TRef.of (T := ⟨S16384, .f32⟩) main_call3_v2) maximumf,
    TRef.unary (TRef.of (T := ⟨S16384, .f32⟩) main_call3_v2) (TRef.of (T := ⟨S16384x1, .f32⟩) main_call3_v3) (broadcastInDim S16384x1 ![0] bcast_S16384_S16384x1_0),
    TRef.unary (TRef.of (T := ⟨S16384x1, .f32⟩) main_call3_v3) (TRef.of (T := ⟨S16384x2048, .f32⟩) main_call3_v4) (broadcastInDim S16384x2048 ![0, 1] bcast_S16384x1_S16384x2048_0_1),
    TRef.binary (TRef.of (T := ⟨S16384x2048, .f32⟩) main_v27) (TRef.of (T := ⟨S16384x2048, .f32⟩) main_call3_v4) (TRef.of (T := ⟨S16384x2048, .f32⟩) main_call3_v5) subf,
    TRef.unary (TRef.of (T := ⟨S16384x2048, .f32⟩) main_call3_v5) (TRef.of (T := ⟨S16384x2048, .f32⟩) main_call3_v6) Host.exp,
    TRef.nullary (TRef.of (T := ⟨S_, .f32⟩) main_call3_cst_1) (constant S_ .f32 0x00000000#32),
    TRef.binary (TRef.of (T := ⟨S16384x2048, .f32⟩) main_call3_v6) (TRef.of (T := ⟨S_, .f32⟩) main_call3_cst_1) (TRef.of (T := ⟨S16384, .f32⟩) main_call3_v7) (fun x v => Host.reduceAdd x v reducesTo_S16384x2048_S16384_d1 h_S_),
    TRef.unary (TRef.of (T := ⟨S16384, .f32⟩) main_call3_v7) (TRef.of (T := ⟨S16384x1, .f32⟩) main_call3_v8) (broadcastInDim S16384x1 ![0] bcast_S16384_S16384x1_0),
    TRef.unary (TRef.of (T := ⟨S16384x1, .f32⟩) main_call3_v8) (TRef.of (T := ⟨S16384x1, .f32⟩) main_call3_v9) Host.log,
    TRef.unary (TRef.of (T := ⟨S16384x1, .f32⟩) main_call3_v9) (TRef.of (T := ⟨S16384x2048, .f32⟩) main_call3_v10) (broadcastInDim S16384x2048 ![0, 1] bcast_S16384x1_S16384x2048_0_1),
    TRef.binary (TRef.of (T := ⟨S16384x2048, .f32⟩) main_call3_v5) (TRef.of (T := ⟨S16384x2048, .f32⟩) main_call3_v10) (TRef.of (T := ⟨S16384x2048, .f32⟩) main_v28) subf ]

/-- The same fifteen operations over plain references: the typed references of the inlined function only
    transport contents along an equation of buffer types that holds by computation. -/
abbrev ops2p : List (HloOp τ sig (Elt F)) :=
  [ nullary main_call3_cst ((constant S_ .f32 0xFF800000#32) : (⟨S_, .f32⟩ : BufTy).Contents (Elt F)),
    binary main_v27 main_call3_cst main_call3_v0 ((fun x v => Host.reduce FloatOps.maximumf x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    nullary main_call3_cst_0 ((constant S_ .f32 0xFF800000#32) : (⟨S_, .f32⟩ : BufTy).Contents (Elt F)),
    unary main_call3_cst_0 main_call3_v1 ((broadcastInDim S16384 ![] bcast_S_S16384) : (⟨S_, .f32⟩ : BufTy).Contents (Elt F) → (⟨S16384, .f32⟩ : BufTy).Contents (Elt F)),
    binary main_call3_v1 main_call3_v0 main_call3_v2 (maximumf : (⟨S16384, .f32⟩ : BufTy).Contents (Elt F) → (⟨S16384, .f32⟩ : BufTy).Contents (Elt F) → (⟨S16384, .f32⟩ : BufTy).Contents (Elt F)),
    unary main_call3_v2 main_call3_v3 ((broadcastInDim S16384x1 ![0] bcast_S16384_S16384x1_0) : (⟨S16384, .f32⟩ : BufTy).Contents (Elt F) → (⟨S16384x1, .f32⟩ : BufTy).Contents (Elt F)),
    unary main_call3_v3 main_call3_v4 ((broadcastInDim S16384x2048 ![0, 1] bcast_S16384x1_S16384x2048_0_1) : (⟨S16384x1, .f32⟩ : BufTy).Contents (Elt F) → (⟨S16384x2048, .f32⟩ : BufTy).Contents (Elt F)),
    binary main_v27 main_call3_v4 main_call3_v5 (subf : (⟨S16384x2048, .f32⟩ : BufTy).Contents (Elt F) → (⟨S16384x2048, .f32⟩ : BufTy).Contents (Elt F) → (⟨S16384x2048, .f32⟩ : BufTy).Contents (Elt F)),
    unary main_call3_v5 main_call3_v6 (Host.exp : (⟨S16384x2048, .f32⟩ : BufTy).Contents (Elt F) → (⟨S16384x2048, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    unary main_call3_v7 main_call3_v8 ((broadcastInDim S16384x1 ![0] bcast_S16384_S16384x1_0) : (⟨S16384, .f32⟩ : BufTy).Contents (Elt F) → (⟨S16384x1, .f32⟩ : BufTy).Contents (Elt F)),
    unary main_call3_v8 main_call3_v9 (Host.log : (⟨S16384x1, .f32⟩ : BufTy).Contents (Elt F) → (⟨S16384x1, .f32⟩ : BufTy).Contents (Elt F)),
    unary main_call3_v9 main_call3_v10 ((broadcastInDim S16384x2048 ![0, 1] bcast_S16384x1_S16384x2048_0_1) : (⟨S16384x1, .f32⟩ : BufTy).Contents (Elt F) → (⟨S16384x2048, .f32⟩ : BufTy).Contents (Elt F)),
    binary main_call3_v5 main_call3_v10 main_v28 (subf : (⟨S16384x2048, .f32⟩ : BufTy).Contents (Elt F) → (⟨S16384x2048, .f32⟩ : BufTy).Contents (Elt F) → (⟨S16384x2048, .f32⟩ : BufTy).Contents (Elt F)) ]

/-- The row maximum's operation over typed references is the plain one, whatever its function. -/
theorem tbinary_plain (f : (⟨S16384x2048, .f32⟩ : BufTy).Contents (Elt F) → (⟨S_, .f32⟩ : BufTy).Contents (Elt F)
      → (⟨S16384, .f32⟩ : BufTy).Contents (Elt F)) :
    (TRef.binary (TRef.of (T := ⟨S16384x2048, .f32⟩) main_v27) (TRef.of (T := ⟨S_, .f32⟩) main_call3_cst)
        (TRef.of (T := ⟨S16384, .f32⟩) main_call3_v0) f : HloOp τ sig (Elt F))
      = binary main_v27 main_call3_cst main_call3_v0 f := rfl

theorem op2_0 : (TRef.nullary (TRef.of (T := ⟨S_, .f32⟩) main_call3_cst) (constant S_ .f32 0xFF800000#32) : HloOp τ sig (Elt F)) = nullary main_call3_cst ((constant S_ .f32 0xFF800000#32) : (⟨S_, .f32⟩ : BufTy).Contents (Elt F)) := rfl
theorem op2_2 : (TRef.nullary (TRef.of (T := ⟨S_, .f32⟩) main_call3_cst_0) (constant S_ .f32 0xFF800000#32) : HloOp τ sig (Elt F)) = nullary main_call3_cst_0 ((constant S_ .f32 0xFF800000#32) : (⟨S_, .f32⟩ : BufTy).Contents (Elt F)) := rfl
theorem op2_3 : (TRef.unary (TRef.of (T := ⟨S_, .f32⟩) main_call3_cst_0) (TRef.of (T := ⟨S16384, .f32⟩) main_call3_v1) (broadcastInDim S16384 ![] bcast_S_S16384) : HloOp τ sig (Elt F)) = unary main_call3_cst_0 main_call3_v1 ((broadcastInDim S16384 ![] bcast_S_S16384) : (⟨S_, .f32⟩ : BufTy).Contents (Elt F) → (⟨S16384, .f32⟩ : BufTy).Contents (Elt F)) := rfl
theorem op2_4 : (TRef.binary (TRef.of (T := ⟨S16384, .f32⟩) main_call3_v1) (TRef.of (T := ⟨S16384, .f32⟩) main_call3_v0) (TRef.of (T := ⟨S16384, .f32⟩) main_call3_v2) maximumf : HloOp τ sig (Elt F)) = binary main_call3_v1 main_call3_v0 main_call3_v2 (maximumf : (⟨S16384, .f32⟩ : BufTy).Contents (Elt F) → (⟨S16384, .f32⟩ : BufTy).Contents (Elt F) → (⟨S16384, .f32⟩ : BufTy).Contents (Elt F)) := rfl
theorem op2_5 : (TRef.unary (TRef.of (T := ⟨S16384, .f32⟩) main_call3_v2) (TRef.of (T := ⟨S16384x1, .f32⟩) main_call3_v3) (broadcastInDim S16384x1 ![0] bcast_S16384_S16384x1_0) : HloOp τ sig (Elt F)) = unary main_call3_v2 main_call3_v3 ((broadcastInDim S16384x1 ![0] bcast_S16384_S16384x1_0) : (⟨S16384, .f32⟩ : BufTy).Contents (Elt F) → (⟨S16384x1, .f32⟩ : BufTy).Contents (Elt F)) := rfl
theorem op2_6 : (TRef.unary (TRef.of (T := ⟨S16384x1, .f32⟩) main_call3_v3) (TRef.of (T := ⟨S16384x2048, .f32⟩) main_call3_v4) (broadcastInDim S16384x2048 ![0, 1] bcast_S16384x1_S16384x2048_0_1) : HloOp τ sig (Elt F)) = unary main_call3_v3 main_call3_v4 ((broadcastInDim S16384x2048 ![0, 1] bcast_S16384x1_S16384x2048_0_1) : (⟨S16384x1, .f32⟩ : BufTy).Contents (Elt F) → (⟨S16384x2048, .f32⟩ : BufTy).Contents (Elt F)) := rfl
theorem op2_7 : (TRef.binary (TRef.of (T := ⟨S16384x2048, .f32⟩) main_v27) (TRef.of (T := ⟨S16384x2048, .f32⟩) main_call3_v4) (TRef.of (T := ⟨S16384x2048, .f32⟩) main_call3_v5) subf : HloOp τ sig (Elt F)) = binary main_v27 main_call3_v4 main_call3_v5 (subf : (⟨S16384x2048, .f32⟩ : BufTy).Contents (Elt F) → (⟨S16384x2048, .f32⟩ : BufTy).Contents (Elt F) → (⟨S16384x2048, .f32⟩ : BufTy).Contents (Elt F)) := rfl
theorem op2_8 : (TRef.unary (TRef.of (T := ⟨S16384x2048, .f32⟩) main_call3_v5) (TRef.of (T := ⟨S16384x2048, .f32⟩) main_call3_v6) Host.exp : HloOp τ sig (Elt F)) = unary main_call3_v5 main_call3_v6 (Host.exp : (⟨S16384x2048, .f32⟩ : BufTy).Contents (Elt F) → (⟨S16384x2048, .f32⟩ : BufTy).Contents (Elt F)) := rfl
theorem op2_9 : (TRef.nullary (TRef.of (T := ⟨S_, .f32⟩) main_call3_cst_1) (constant S_ .f32 0x00000000#32) : HloOp τ sig (Elt F)) = nullary main_call3_cst_1 ((constant S_ .f32 0x00000000#32) : (⟨S_, .f32⟩ : BufTy).Contents (Elt F)) := rfl
theorem op2_10 : (TRef.binary (TRef.of (T := ⟨S16384x2048, .f32⟩) main_call3_v6) (TRef.of (T := ⟨S_, .f32⟩) main_call3_cst_1) (TRef.of (T := ⟨S16384, .f32⟩) main_call3_v7) (fun x v => Host.reduceAdd x v reducesTo_S16384x2048_S16384_d1 h_S_) : HloOp τ sig (Elt F)) = binary main_call3_v6 main_call3_cst_1 main_call3_v7 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)) := rfl
theorem op2_11 : (TRef.unary (TRef.of (T := ⟨S16384, .f32⟩) main_call3_v7) (TRef.of (T := ⟨S16384x1, .f32⟩) main_call3_v8) (broadcastInDim S16384x1 ![0] bcast_S16384_S16384x1_0) : HloOp τ sig (Elt F)) = unary main_call3_v7 main_call3_v8 ((broadcastInDim S16384x1 ![0] bcast_S16384_S16384x1_0) : (⟨S16384, .f32⟩ : BufTy).Contents (Elt F) → (⟨S16384x1, .f32⟩ : BufTy).Contents (Elt F)) := rfl
theorem op2_12 : (TRef.unary (TRef.of (T := ⟨S16384x1, .f32⟩) main_call3_v8) (TRef.of (T := ⟨S16384x1, .f32⟩) main_call3_v9) Host.log : HloOp τ sig (Elt F)) = unary main_call3_v8 main_call3_v9 (Host.log : (⟨S16384x1, .f32⟩ : BufTy).Contents (Elt F) → (⟨S16384x1, .f32⟩ : BufTy).Contents (Elt F)) := rfl
theorem op2_13 : (TRef.unary (TRef.of (T := ⟨S16384x1, .f32⟩) main_call3_v9) (TRef.of (T := ⟨S16384x2048, .f32⟩) main_call3_v10) (broadcastInDim S16384x2048 ![0, 1] bcast_S16384x1_S16384x2048_0_1) : HloOp τ sig (Elt F)) = unary main_call3_v9 main_call3_v10 ((broadcastInDim S16384x2048 ![0, 1] bcast_S16384x1_S16384x2048_0_1) : (⟨S16384x1, .f32⟩ : BufTy).Contents (Elt F) → (⟨S16384x2048, .f32⟩ : BufTy).Contents (Elt F)) := rfl
theorem op2_14 : (TRef.binary (TRef.of (T := ⟨S16384x2048, .f32⟩) main_call3_v5) (TRef.of (T := ⟨S16384x2048, .f32⟩) main_call3_v10) (TRef.of (T := ⟨S16384x2048, .f32⟩) main_v28) subf : HloOp τ sig (Elt F)) = binary main_call3_v5 main_call3_v10 main_v28 (subf : (⟨S16384x2048, .f32⟩ : BufTy).Contents (Elt F) → (⟨S16384x2048, .f32⟩ : BufTy).Contents (Elt F) → (⟨S16384x2048, .f32⟩ : BufTy).Contents (Elt F)) := rfl

/-- The log-softmax stretch over plain references. -/
theorem ops2_plain : (ops2 (F := F)) = ops2p :=
  (congrArg₂ List.cons op2_0 (congrArg₂ List.cons (tbinary_plain _) (congrArg₂ List.cons op2_2 (congrArg₂ List.cons op2_3 (congrArg₂ List.cons op2_4 (congrArg₂ List.cons op2_5 (congrArg₂ List.cons op2_6 (congrArg₂ List.cons op2_7 (congrArg₂ List.cons op2_8 (congrArg₂ List.cons op2_9 (congrArg₂ List.cons op2_10 (congrArg₂ List.cons op2_11 (congrArg₂ List.cons op2_12 (congrArg₂ List.cons op2_13 (congrArg₂ List.cons op2_14 rfl)))))))))))))))

/-- Operations 64–80: the two index columns. -/
abbrev ops3 : List (HloOp τ sig (Elt F)) :=
  [ nullary main_v29 (iotaInDim S16384 32 0),
    nullary main_c (constantI S_ 32 0#32),
    unary main_c main_v30 (broadcastInDim S16384 ![] bcast_S_S16384 : (⟨S_, .i32⟩ : BufTy).Contents (Elt F) → (⟨S16384, .i32⟩ : BufTy).Contents (Elt F)),
    binary main_v29 main_v30 main_v31 (cmpi .slt : (⟨S16384, .i32⟩ : BufTy).Contents (Elt F) → (⟨S16384, .i32⟩ : BufTy).Contents (Elt F) → (⟨S16384, .i1⟩ : BufTy).Contents (Elt F)),
    nullary main_c_6 (constantI S_ 32 16384#32),
    unary main_c_6 main_v32 (broadcastInDim S16384 ![] bcast_S_S16384 : (⟨S_, .i32⟩ : BufTy).Contents (Elt F) → (⟨S16384, .i32⟩ : BufTy).Contents (Elt F)),
    binary main_v29 main_v32 main_v33 (addi : (⟨S16384, .i32⟩ : BufTy).Contents (Elt F) → (⟨S16384, .i32⟩ : BufTy).Contents (Elt F) → (⟨S16384, .i32⟩ : BufTy).Contents (Elt F)),
    ternary main_v31 main_v33 main_v29 main_v34 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_7 (constantI S_ 32 0#32),
    unary main_c_7 main_v35 (broadcastInDim S16384 ![] bcast_S_S16384 : (⟨S_, .i32⟩ : BufTy).Contents (Elt F) → (⟨S16384, .i32⟩ : BufTy).Contents (Elt F)),
    binary main_arg1 main_v35 main_v36 (cmpi .slt : (⟨S16384, .i32⟩ : BufTy).Contents (Elt F) → (⟨S16384, .i32⟩ : BufTy).Contents (Elt F) → (⟨S16384, .i1⟩ : BufTy).Contents (Elt F)),
    nullary main_c_8 (constantI S_ 32 2048#32),
    unary main_c_8 main_v37 (broadcastInDim S16384 ![] bcast_S_S16384 : (⟨S_, .i32⟩ : BufTy).Contents (Elt F) → (⟨S16384, .i32⟩ : BufTy).Contents (Elt F)),
    binary main_arg1 main_v37 main_v38 (addi : (⟨S16384, .i32⟩ : BufTy).Contents (Elt F) → (⟨S16384, .i32⟩ : BufTy).Contents (Elt F) → (⟨S16384, .i32⟩ : BufTy).Contents (Elt F)),
    ternary main_v36 main_v38 main_arg1 main_v39 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v34 main_v40 (broadcastInDim S16384x1 ![0] bcast_S16384_S16384x1_0 : (⟨S16384, .i32⟩ : BufTy).Contents (Elt F) → (⟨S16384x1, .i32⟩ : BufTy).Contents (Elt F)),
    unary main_v39 main_v41 (broadcastInDim S16384x1 ![0] bcast_S16384_S16384x1_0 : (⟨S16384, .i32⟩ : BufTy).Contents (Elt F) → (⟨S16384x1, .i32⟩ : BufTy).Contents (Elt F)) ]

/-- Operations 81–102: the gather, the mean, the one-hot matrix and the matrix result. -/
abbrev ops4 : List (HloOp τ sig (Elt F)) :=
  [ binary main_v40 main_v41 main_v42 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v28 main_v42 main_v43 ((fun x i => Host.gather gather_S16384x2048_S16384x2_S16384_n_01_n_n_01_1_11 x i) : (⟨S16384x2048, .f32⟩ : BufTy).Contents (Elt F) → (⟨S16384x2, .i32⟩ : BufTy).Contents (Elt F) → (⟨S16384, .f32⟩ : BufTy).Contents (Elt F)),
    unary main_v43 main_v44 (Host.negf : (⟨S16384, .f32⟩ : BufTy).Contents (Elt F) → (⟨S16384, .f32⟩ : BufTy).Contents (Elt F)),
    nullary main_cst_9 (constant S_ .f32 0x00000000#32),
    binary main_v44 main_cst_9 main_v45 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_10 (constant S_ .f32 0x46800000#32),
    binary main_v45 main_cst_10 main_v46 (Host.divf : (⟨S_, .f32⟩ : BufTy).Contents (Elt F) → (⟨S_, .f32⟩ : BufTy).Contents (Elt F) → (⟨S_, .f32⟩ : BufTy).Contents (Elt F)),
    TRef.unary (TRef.of (T := ⟨S16384, .i32⟩) main_arg1) (TRef.of (T := ⟨S16384x1, .i32⟩) main_call4_v0) (broadcastInDim S16384x1 ![0] bcast_S16384_S16384x1_0),
    TRef.nullary (TRef.of (T := ⟨S1x2048, .i32⟩) main_call4_v1) (iotaInDim S1x2048 32 1),
    TRef.unary (TRef.of (T := ⟨S16384x1, .i32⟩) main_call4_v0) (TRef.of (T := ⟨S16384x2048, .i32⟩) main_call4_v2) (broadcastInDim S16384x2048 ![0, 1] bcast_S16384x1_S16384x2048_0_1),
    TRef.unary (TRef.of (T := ⟨S1x2048, .i32⟩) main_call4_v1) (TRef.of (T := ⟨S16384x2048, .i32⟩) main_call4_v3) (broadcastInDim S16384x2048 ![0, 1] bcast_S1x2048_S16384x2048_0_1),
    TRef.binary (TRef.of (T := ⟨S16384x2048, .i32⟩) main_call4_v2) (TRef.of (T := ⟨S16384x2048, .i32⟩) main_call4_v3) (TRef.of (T := ⟨S16384x2048, .i1⟩) main_call4_v4) (cmpi .eq),
    TRef.unary (TRef.of (T := ⟨S16384x2048, .i1⟩) main_call4_v4) (TRef.of (T := ⟨S16384x2048, .f32⟩) main_v47) (uitofp .f32),
    nullary main_cst_11 (constant S_ .f32 0xBF666666#32),
    unary main_cst_11 main_v48 (broadcastInDim S16384x2048 ![] bcast_S_S16384x2048 : (⟨S_, .f32⟩ : BufTy).Contents (Elt F) → (⟨S16384x2048, .f32⟩ : BufTy).Contents (Elt F)),
    binary main_v48 main_v25 main_v49 (mulf : (⟨S16384x2048, .f32⟩ : BufTy).Contents (Elt F) → (⟨S16384x2048, .f32⟩ : BufTy).Contents (Elt F) → (⟨S16384x2048, .f32⟩ : BufTy).Contents (Elt F)),
    unary main_v49 main_v50 (Host.exp : (⟨S16384x2048, .f32⟩ : BufTy).Contents (Elt F) → (⟨S16384x2048, .f32⟩ : BufTy).Contents (Elt F)),
    nullary main_cst_12 (constant S_ .f32 0x3F800000#32),
    unary main_cst_12 main_v51 (broadcastInDim S16384x2048 ![] bcast_S_S16384x2048 : (⟨S_, .f32⟩ : BufTy).Contents (Elt F) → (⟨S16384x2048, .f32⟩ : BufTy).Contents (Elt F)),
    binary main_v51 main_v47 main_v52 (subf : (⟨S16384x2048, .f32⟩ : BufTy).Contents (Elt F) → (⟨S16384x2048, .f32⟩ : BufTy).Contents (Elt F) → (⟨S16384x2048, .f32⟩ : BufTy).Contents (Elt F)),
    binary main_v50 main_v52 main_v53 (mulf : (⟨S16384x2048, .f32⟩ : BufTy).Contents (Elt F) → (⟨S16384x2048, .f32⟩ : BufTy).Contents (Elt F) → (⟨S16384x2048, .f32⟩ : BufTy).Contents (Elt F)),
    binary main_v47 main_v53 main_v54 (addf : (⟨S16384x2048, .f32⟩ : BufTy).Contents (Elt F) → (⟨S16384x2048, .f32⟩ : BufTy).Contents (Elt F) → (⟨S16384x2048, .f32⟩ : BufTy).Contents (Elt F)) ]

set_option maxRecDepth 8192 in
/-- The four stretches are the program's operations, in order. -/
theorem ops_cut : (ops (F := F)) = ops1 ++ (ops2 ++ (ops3 ++ ops4)) := rfl

variable (m : (ℓ : Loc nD τ sig) → Buf (Elt F) ℓ) (c : Dev nD)

/-- The four arguments as launched. -/
abbrev a0 : (⟨S16384x128, .f32⟩ : BufTy).Contents (Elt F) := m ((c.tc : Thread nD τ).loc main_arg0)
abbrev a1 : (⟨S16384, .i32⟩ : BufTy).Contents (Elt F) := m ((c.tc : Thread nD τ).loc main_arg1)
abbrev a2 : (⟨S2048x128, .f32⟩ : BufTy).Contents (Elt F) := m ((c.tc : Thread nD τ).loc main_arg2)
abbrev a3 : (⟨S2048x128, .f32⟩ : BufTy).Contents (Elt F) := m ((c.tc : Thread nD τ).loc main_arg3)

/-- What the later stretches need of a valuation: the arguments as launched. -/
structure Args (W : Valuation τ sig (Elt F)) : Prop where
  h0 : W (Proc.devRef .tc main_arg0) = m ((c.tc : Thread nD τ).loc main_arg0)
  h1 : W (Proc.devRef .tc main_arg1) = m ((c.tc : Thread nD τ).loc main_arg1)
  h2 : W (Proc.devRef .tc main_arg2) = m ((c.tc : Thread nD τ).loc main_arg2)
  h3 : W (Proc.devRef .tc main_arg3) = m ((c.tc : Thread nD τ).loc main_arg3)

/-! ## Stretch 1 -/

set_option maxRecDepth 8192 in
set_option maxHeartbeats 4000000 in
theorem s1_v27 : after (ops1 (F := F)) (launchContents m c) (Proc.devRef .tc main_v27)
    = val_main_v27 (F := F) (a0 m c) (a2 m c) (a3 m c) := by
  after_results_simp <;> rfl

set_option maxRecDepth 8192 in
set_option maxHeartbeats 4000000 in
theorem s1_v25 : after (ops1 (F := F)) (launchContents m c) (Proc.devRef .tc main_v25)
    = val_main_v25 (F := F) (a0 m c) (a2 m c) (a3 m c) := by
  after_results_simp <;> rfl

set_option maxRecDepth 8192 in
set_option maxHeartbeats 4000000 in
theorem s1_args : Args m c (after (ops1 (F := F)) (launchContents m c)) :=
  ⟨by after_results_simp <;> rfl, by after_results_simp <;> rfl, by after_results_simp <;> rfl, by after_results_simp <;> rfl⟩

/-! ## Stretch 2 -/

section S2
variable (W : Valuation τ sig (Elt F))

set_option maxRecDepth 8192 in
set_option maxHeartbeats 4000000 in
theorem s2_v28 (h27 : W (Proc.devRef .tc main_v27) = val_main_v27 (F := F) (a0 m c) (a2 m c) (a3 m c)) :
    after (ops2 (F := F)) W (Proc.devRef .tc main_v28) = val_main_v28 (F := F) (a0 m c) (a2 m c) (a3 m c) := by
  rw [ops2_plain]
  after_results_simp
  rw [h27]
  rfl

set_option maxRecDepth 8192 in
theorem s2_v25 : after (ops2 (F := F)) W (Proc.devRef .tc main_v25) = W (Proc.devRef .tc main_v25) := by
  after_results_simp

set_option maxRecDepth 8192 in
theorem s2_args (h : Args m c W) : Args m c (after (ops2 (F := F)) W) :=
  ⟨(by after_results_simp : after (ops2 (F := F)) W (Proc.devRef .tc main_arg0) = W (Proc.devRef .tc main_arg0)).trans h.h0,
   (by after_results_simp : after (ops2 (F := F)) W (Proc.devRef .tc main_arg1) = W (Proc.devRef .tc main_arg1)).trans h.h1,
   (by after_results_simp : after (ops2 (F := F)) W (Proc.devRef .tc main_arg2) = W (Proc.devRef .tc main_arg2)).trans h.h2,
   (by after_results_simp : after (ops2 (F := F)) W (Proc.devRef .tc main_arg3) = W (Proc.devRef .tc main_arg3)).trans h.h3⟩

end S2

/-! ## Stretch 3 -/

section S3
variable (W : Valuation τ sig (Elt F))

set_option maxRecDepth 8192 in
theorem s3_v40 : after (ops3 (F := F)) W (Proc.devRef .tc main_v40) = val_main_v40 (F := F) := by
  after_results_simp <;> rfl

set_option maxRecDepth 8192 in
theorem s3_v41 (h1 : W (Proc.devRef .tc main_arg1) = m ((c.tc : Thread nD τ).loc main_arg1)) :
    after (ops3 (F := F)) W (Proc.devRef .tc main_v41) = val_main_v41 (F := F) (a1 m c) := by
  after_results_simp
  rw [h1]
  rfl

set_option maxRecDepth 8192 in
theorem s3_v28 : after (ops3 (F := F)) W (Proc.devRef .tc main_v28) = W (Proc.devRef .tc main_v28) := by
  after_results_simp

set_option maxRecDepth 8192 in
theorem s3_v25 : after (ops3 (F := F)) W (Proc.devRef .tc main_v25) = W (Proc.devRef .tc main_v25) := by
  after_results_simp

set_option maxRecDepth 8192 in
theorem s3_args (h : Args m c W) : Args m c (after (ops3 (F := F)) W) :=
  ⟨(by after_results_simp : after (ops3 (F := F)) W (Proc.devRef .tc main_arg0) = W (Proc.devRef .tc main_arg0)).trans h.h0,
   (by after_results_simp : after (ops3 (F := F)) W (Proc.devRef .tc main_arg1) = W (Proc.devRef .tc main_arg1)).trans h.h1,
   (by after_results_simp : after (ops3 (F := F)) W (Proc.devRef .tc main_arg2) = W (Proc.devRef .tc main_arg2)).trans h.h2,
   (by after_results_simp : after (ops3 (F := F)) W (Proc.devRef .tc main_arg3) = W (Proc.devRef .tc main_arg3)).trans h.h3⟩

end S3

/-! ## Stretch 4 -/

section S4
variable (W : Valuation τ sig (Elt F))

set_option maxRecDepth 8192 in
set_option maxHeartbeats 4000000 in
theorem s4_v46 (h28 : W (Proc.devRef .tc main_v28) = val_main_v28 (F := F) (a0 m c) (a2 m c) (a3 m c))
    (h40 : W (Proc.devRef .tc main_v40) = val_main_v40 (F := F))
    (h41 : W (Proc.devRef .tc main_v41) = val_main_v41 (F := F) (a1 m c)) :
    after (ops4 (F := F)) W (Proc.devRef .tc main_v46) = val_main_v46 (F := F) (a0 m c) (a1 m c) (a2 m c) (a3 m c) := by
  after_results_simp
  rw [h28, h40, h41]
  rfl

set_option maxRecDepth 8192 in
set_option maxHeartbeats 4000000 in
theorem s4_v54 (h25 : W (Proc.devRef .tc main_v25) = val_main_v25 (F := F) (a0 m c) (a2 m c) (a3 m c))
    (h1 : W (Proc.devRef .tc main_arg1) = m ((c.tc : Thread nD τ).loc main_arg1)) :
    after (ops4 (F := F)) W (Proc.devRef .tc main_v54) = val_main_v54 (F := F) (a0 m c) (a1 m c) (a2 m c) (a3 m c) := by
  after_results_simp
  rw [h25, h1]
  rfl

set_option maxRecDepth 8192 in
theorem s4_args (h : Args m c W) : Args m c (after (ops4 (F := F)) W) :=
  ⟨(by after_results_simp : after (ops4 (F := F)) W (Proc.devRef .tc main_arg0) = W (Proc.devRef .tc main_arg0)).trans h.h0,
   (by after_results_simp : after (ops4 (F := F)) W (Proc.devRef .tc main_arg1) = W (Proc.devRef .tc main_arg1)).trans h.h1,
   (by after_results_simp : after (ops4 (F := F)) W (Proc.devRef .tc main_arg2) = W (Proc.devRef .tc main_arg2)).trans h.h2,
   (by after_results_simp : after (ops4 (F := F)) W (Proc.devRef .tc main_arg3) = W (Proc.devRef .tc main_arg3)).trans h.h3⟩

end S4

/-! ## The whole line -/

/-- The whole line is the four stretches one after the other. -/
theorem after_cut (V : Valuation τ sig (Elt F)) :
    after (ops (F := F)) V = after ops4 (after ops3 (after ops2 (after ops1 V))) := by
  rw [ops_cut, StableHlo.after_append, StableHlo.after_append, StableHlo.after_append]

theorem after_v46 : after (ops (F := F)) (launchContents m c) (Proc.devRef .tc main_v46)
    = val_main_v46 (F := F) (a0 m c) (a1 m c) (a2 m c) (a3 m c) := by
  rw [after_cut]
  refine s4_v46 m c _ ?_ (s3_v40 _) (s3_v41 m c _ (s2_args m c _ (s1_args m c)).h1)
  rw [s3_v28]
  exact s2_v28 m c _ (s1_v27 m c)

theorem after_v54 : after (ops (F := F)) (launchContents m c) (Proc.devRef .tc main_v54)
    = val_main_v54 (F := F) (a0 m c) (a1 m c) (a2 m c) (a3 m c) := by
  rw [after_cut]
  refine s4_v54 m c _ ?_ (s3_args m c _ (s2_args m c _ (s1_args m c))).h1
  rw [s3_v25, s2_v25]
  exact s1_v25 m c

theorem after_args : Args m c (after (ops (F := F)) (launchContents m c)) := by
  rw [after_cut]
  exact s4_args m c _ (s3_args m c _ (s2_args m c _ (s1_args m c)))

/-- On every device, for any float values, from any memory with zero counters: every weakly fair execution of the
    reference terminates with each result at its stage of the arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v46) = val_main_v46 (F := F) (a0 m c) (a1 m c) (a2 m c) (a3 m c)
      ∧ r.2.mem ((c.tc : Thread nD τ).loc main_v54) = val_main_v54 (F := F) (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v46).trans (after_v46 m c), (h c main_v54).trans (after_v54 m c),
      (h c main_arg0).trans (after_args m c).h0, (h c main_arg1).trans (after_args m c).h1,
      (h c main_arg2).trans (after_args m c).h2, (h c main_arg3).trans (after_args m c).h3⟩)
    (run_seq scopedRefs_eq scopedSems_eq defs main (fun _ => ops) main_eq (fun _ => ops_sub) m ρ)

end Cert.ReferenceIdeal.RunVal

end
-- ==== Proof.RefVal.lean ====
/-
  The reference's two results, as the stages its operations compose to, are the specification's reference side:
  the matrix result index by index, and the mean loss. The gather that picks each sample's log-probability reads
  column `T n` of row `n` when the label word is below 2048 (it is then neither negative, so the wrap-around of
  negative indices leaves it alone, nor beyond the last column, so the clamp does).
-/
import proofs.«401288_j57552561766661_2_alg».proof.Proof.RefRead
import proofs.«401288_j57552561766661_2_alg».proof.Proof.Spec
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Cert.ReferenceIdeal.Gen Cert.ReferenceIdeal.ReadP Idealize.ShloMosaic Idealize.ShloMosaic.TcCoe
open Idealize.ShloMosaic.ValueIdx

/-- The normalised samples. -/
theorem v5_eq (x0 : S16384x128.Idx → EReal) (n : Fin 16384) (f : Fin 128) :
    val_main_v5 (F := Ideal) x0 (ix2 n f) = Cert.Spec.nrm (Cert.Spec.curry2 x0) n f := by
  have hidx : ∀ k : Fin 128, idx_main_call1_v1 (idx_main_call1_v2 (idx_main_v4 (ix2 n f))) k = ix2 n k := fun k =>
    funext fun a => Fin.ext (by match a with | ⟨0, _⟩ => rfl | ⟨1, _⟩ => rfl)
  rw [val_main_v5_apply, val_main_v4_apply, val_main_v3_apply, val_main_v1_apply, val_main_call1_v2_apply,
    val_main_call1_v1_apply, val_main_v2_apply, val_main_cst_1_apply, val_main_call1_cst_apply]
  simp only [val_main_call1_v0_apply, hidx]
  simp only [Ideal.hostDivf_def, Ideal.maximumf_def, Ideal.hostUnary_sqrt_def, Ideal.ofBits_def, Ideal.mulf_def,
    Ideal.ofBits_zero_f32, zero_add]
  rfl

/-- The normalised class means. -/
theorem v10_eq (x2 : S2048x128.Idx → EReal) (c : Fin 2048) (f : Fin 128) :
    val_main_v10 (F := Ideal) x2 (ix2 c f) = Cert.Spec.nrm (Cert.Spec.curry2 x2) c f := by
  have hidx : ∀ k : Fin 128, idx_main_call2_v1 (idx_main_call2_v2 (idx_main_v9 (ix2 c f))) k = ix2 c k := fun k =>
    funext fun a => Fin.ext (by match a with | ⟨0, _⟩ => rfl | ⟨1, _⟩ => rfl)
  rw [val_main_v10_apply, val_main_v9_apply, val_main_v8_apply, val_main_v6_apply, val_main_call2_v2_apply,
    val_main_call2_v1_apply, val_main_v7_apply, val_main_cst_2_apply, val_main_call2_cst_apply]
  simp only [val_main_call2_v0_apply, hidx]
  simp only [Ideal.hostDivf_def, Ideal.maximumf_def, Ideal.hostUnary_sqrt_def, Ideal.ofBits_def, Ideal.mulf_def,
    Ideal.ofBits_zero_f32, zero_add]
  rfl

/-- The inverse variances. -/
theorem v12_eq (x3 : S2048x128.Idx → EReal) (c : Fin 2048) (f : Fin 128) :
    val_main_v12 (F := Ideal) x3 (ix2 c f) = Cert.Spec.ic (Cert.Spec.curry2 x3) c f := by
  rw [val_main_v12_apply, val_main_v11_apply, val_main_v0_apply, val_main_call0_v4_apply, val_main_call0_v3_apply,
    val_main_cst_0_apply, val_main_call0_v2_apply, val_main_call0_v1_apply, val_main_call0_v0_apply, val_main_cst_apply]
  simp only [Ideal.hostUnary_exp_def, Ideal.hostNegf_def, Ideal.negf_def, Ideal.minimumf_def, Ideal.maximumf_def,
    Ideal.ofBits_def, Ideal.ofBits_zero_f32]
  rfl

/-- The distance of every sample to every class. -/
theorem v25_eq (x0 : S16384x128.Idx → EReal) (x2 x3 : S2048x128.Idx → EReal) (n : Fin 16384) (c : Fin 2048) :
    val_main_v25 (F := Ideal) x0 x2 x3 (ix2 n c)
      = Cert.Spec.D (Cert.Spec.curry2 x0) (Cert.Spec.curry2 x2) (Cert.Spec.curry2 x3) n c := by
  have hl14 : ∀ k : Fin 128, lidx_main_v14 (ix2 n c) k = ix2 n k := fun k =>
    funext fun a => Fin.ext (by match a with | ⟨0, _⟩ => rfl | ⟨1, _⟩ => rfl)
  have hr14 : ∀ k : Fin 128, ridx_main_v14 (ix2 n c) k = ix2 c k := fun k =>
    funext fun a => Fin.ext (by match a with | ⟨0, _⟩ => rfl | ⟨1, _⟩ => rfl)
  have hl16 : ∀ k : Fin 128, lidx_main_v16 (ix2 n c) k = ix2 n k := fun k =>
    funext fun a => Fin.ext (by match a with | ⟨0, _⟩ => rfl | ⟨1, _⟩ => rfl)
  have hr16 : ∀ k : Fin 128, ridx_main_v16 (ix2 n c) k = ix2 c k := fun k =>
    funext fun a => Fin.ext (by match a with | ⟨0, _⟩ => rfl | ⟨1, _⟩ => rfl)
  have h22 : ∀ k : Fin 128, idx_main_v22 (idx_main_v23 (idx_main_v24 (ix2 n c))) k = ix2 c k := fun k =>
    funext fun a => Fin.ext (by match a with | ⟨0, _⟩ => rfl | ⟨1, _⟩ => rfl)
  rw [val_main_v25_apply, val_main_v19_apply, val_main_v14_apply, val_main_v18_apply, val_main_v17_apply,
    val_main_cst_3_apply, val_main_v16_apply, val_main_v24_apply, val_main_v23_apply, val_main_v22_apply,
    val_main_cst_4_apply]
  simp only [hl14, hr14, hl16, hr16, h22, val_main_v13_apply, val_main_v15_apply, val_main_v21_apply,
    val_main_v20_apply, v5_eq, v10_eq, v12_eq]
  simp only [Ideal.addf_def, Ideal.subf_def, Ideal.mulf_def, Ideal.ofBits_def, Ideal.ofBits_zero_f32, zero_add]
  rfl

/-- The label test as a number: `1` where the two words agree, `0` elsewhere. -/
theorem uitofp_cmpi_eq (u v : BitVec 32) :
    (FloatOps.uitofp (F := Ideal) .f32 (IntOp.cmpi .eq u v) : EReal) = if u = v then 1 else 0 := by
  show (((IntOp.cmpi .eq u v).toNat : ℝ) : EReal) = _
  by_cases h : u = v
  · subst h; simp [IntOp.cmpi]
  · simp [IntOp.cmpi, h]

/-- The one-hot matrix of the labels. -/
theorem v47_eq (x1 : S16384.Idx → BitVec 32) (n : Fin 16384) (c : Fin 2048) :
    val_main_v47 (F := Ideal) x1 (ix2 n c) = Cert.Spec.hot (Cert.Spec.curry1 x1) n c := by
  have h0 : idx_main_call4_v0 (idx_main_call4_v2 (ix2 n c)) = ix1 n :=
    funext fun a => Fin.ext (by match a with | ⟨0, _⟩ => rfl)
  rw [val_main_v47_apply, val_main_call4_v4_apply, val_main_call4_v2_apply, val_main_call4_v0_apply,
    val_main_call4_v3_apply, val_main_call4_v1_apply, h0, uitofp_cmpi_eq]
  rfl

/-- The matrix result. -/
theorem v54_eq (x0 : S16384x128.Idx → EReal) (x1 : S16384.Idx → BitVec 32) (x2 x3 : S2048x128.Idx → EReal) :
    val_main_v54 (F := Ideal) x0 x1 x2 x3 = Cert.Spec.HRarr x0 x1 x2 x3 := by
  funext i
  obtain ⟨n, c, rfl⟩ : ∃ (n : Fin 16384) (c : Fin 2048), i = ix2 n c := ⟨i 0, i 1, eq_ix2 i⟩
  rw [val_main_v54_apply, val_main_v53_apply, val_main_v50_apply, val_main_v49_apply, val_main_v48_apply,
    val_main_cst_11_apply, val_main_v52_apply, val_main_v51_apply, val_main_cst_12_apply, v47_eq, v25_eq]
  simp only [Ideal.addf_def, Ideal.subf_def, Ideal.mulf_def, Ideal.hostUnary_exp_def, Ideal.ofBits_def]
  rfl

/-- A row maximum read at a sample: the fold of `max` over the row's entries. -/
theorem rowmax_read (x : S16384x2048.Idx → EReal) (init : S_.Idx → EReal) (n : Fin 16384) :
    Host.reduce (α := EReal) (FloatOps.maximumf (F := Ideal) (φ := .f32)) x init reducesTo_S16384x2048_S16384_d1 h_S_ (ix1 n)
      = (Finset.univ : Finset (Fin 2048)).fold max (init (Shape.Idx.first h_S_)) (fun c => x (ix2 n c)) := by
  have hred : S16384x2048.Reduces [1] S16384 := by decide
  have key := Host.reduce_eq_fold_single (α := EReal) (FloatOps.maximumf (F := Ideal) (φ := .f32)) x init
    reducesTo_S16384x2048_S16384_d1 hred h_S_ (ix1 n)
  have hl : ∀ c : Fin 2048, hred.lift (ix1 n) c = ix2 n c := fun c =>
    funext fun a => Fin.ext (by match a with | ⟨0, _⟩ => rfl | ⟨1, _⟩ => rfl)
  refine key.trans ?_
  show (Finset.univ : Finset (Fin 2048)).fold max (init (Shape.Idx.first h_S_))
    (fun c : Fin 2048 => x (hred.lift (ix1 n) c)) = _
  simp only [hl]

/-- The reference's logits. -/
theorem v27_eq (x0 : S16384x128.Idx → EReal) (x2 x3 : S2048x128.Idx → EReal) (n : Fin 16384) (c : Fin 2048) :
    val_main_v27 (F := Ideal) x0 x2 x3 (ix2 n c)
      = Cert.Spec.LR (Cert.Spec.curry2 x0) (Cert.Spec.curry2 x2) (Cert.Spec.curry2 x3) n c := by
  rw [val_main_v27_apply, val_main_v26_apply, val_main_cst_5_apply, v25_eq]
  rfl

/-- The row maximum of the logits. -/
theorem call3_v0_eq (x0 : S16384x128.Idx → EReal) (x2 x3 : S2048x128.Idx → EReal) (n : Fin 16384) :
    val_main_call3_v0 (F := Ideal) x0 x2 x3 (ix1 n)
      = Cert.Spec.rowmax (Cert.Spec.LR (Cert.Spec.curry2 x0) (Cert.Spec.curry2 x2) (Cert.Spec.curry2 x3) n) := by
  unfold val_main_call3_v0
  refine (rowmax_read (val_main_v27 (F := Ideal) x0 x2 x3) (val_main_call3_cst (F := Ideal)) n).trans ?_
  simp only [v27_eq, val_main_call3_cst_apply]
  rfl

/-- The shift of a row: its maximum joined with `-∞`. -/
theorem call3_v2_eq (x0 : S16384x128.Idx → EReal) (x2 x3 : S2048x128.Idx → EReal) (n : Fin 16384) :
    val_main_call3_v2 (F := Ideal) x0 x2 x3 (ix1 n)
      = Cert.Spec.shiftR (Cert.Spec.curry2 x0) (Cert.Spec.curry2 x2) (Cert.Spec.curry2 x3) n := by
  rw [val_main_call3_v2_apply, val_main_call3_v1_apply, val_main_call3_cst_0_apply, call3_v0_eq]
  rfl

/-- The shifted logits. -/
theorem call3_v5_eq (x0 : S16384x128.Idx → EReal) (x2 x3 : S2048x128.Idx → EReal) (n : Fin 16384) (c : Fin 2048) :
    val_main_call3_v5 (F := Ideal) x0 x2 x3 (ix2 n c)
      = Cert.Spec.LR (Cert.Spec.curry2 x0) (Cert.Spec.curry2 x2) (Cert.Spec.curry2 x3) n c
        - Cert.Spec.shiftR (Cert.Spec.curry2 x0) (Cert.Spec.curry2 x2) (Cert.Spec.curry2 x3) n := by
  have h : idx_main_call3_v3 (idx_main_call3_v4 (ix2 n c)) = ix1 n :=
    funext fun a => Fin.ext (by match a with | ⟨0, _⟩ => rfl)
  rw [val_main_call3_v5_apply, val_main_call3_v4_apply, val_main_call3_v3_apply, h, call3_v2_eq, v27_eq]
  rfl

/-- The row-wise log-softmax of the logits. -/
theorem v28_eq (x0 : S16384x128.Idx → EReal) (x2 x3 : S2048x128.Idx → EReal) (n : Fin 16384) (c : Fin 2048) :
    val_main_v28 (F := Ideal) x0 x2 x3 (ix2 n c)
      = Cert.Spec.logp (Cert.Spec.curry2 x0) (Cert.Spec.curry2 x2) (Cert.Spec.curry2 x3) n c := by
  have h : ∀ k : Fin 2048, idx_main_call3_v7 (idx_main_call3_v8 (idx_main_call3_v10 (ix2 n c))) k = ix2 n k := fun k =>
    funext fun a => Fin.ext (by match a with | ⟨0, _⟩ => rfl | ⟨1, _⟩ => rfl)
  rw [val_main_v28_apply, call3_v5_eq, val_main_call3_v10_apply, val_main_call3_v9_apply, val_main_call3_v8_apply,
    val_main_call3_v7_apply, val_main_call3_cst_1_apply]
  simp only [h, val_main_call3_v6_apply, call3_v5_eq]
  simp only [Ideal.subf_def, Ideal.hostUnary_log_def, Ideal.hostUnary_exp_def, Ideal.ofBits_def, Ideal.ofBits_zero_f32,
    zero_add]
  rfl

/-- A word whose unsigned value is below `2^31` is not negative as a signed one. -/
theorem slt_zero_of_lt (w : BitVec 32) (h : w.toNat < 2147483648) : IntOp.cmpi .slt w 0#32 = 0#1 := by
  have hi : w.toInt = (w.toNat : Int) := BitVec.toInt_eq_toNat_of_lt (by omega)
  have : ¬ w.toInt < 0 := by rw [hi]; omega
  simp [IntOp.cmpi, BitVec.slt, this]

/-- Such a word read signed is its unsigned value. -/
theorem toInt_toNat_of_lt (w : BitVec 32) (h : w.toNat < 2147483648) : w.toInt.toNat = w.toNat := by
  rw [BitVec.toInt_eq_toNat_of_lt (by omega)]; simp

/-- The first column of the gather's start indices: the sample's own number. -/
theorem v42_col0 (x1 : S16384.Idx → BitVec 32) (n : Fin 16384) :
    val_main_v42 (F := Ideal) x1 (ix2 n (0 : Fin 2)) = BitVec.ofNat 32 n.val := by
  unfold val_main_v42
  refine (concatenate_pair_apply_left 1 (val_main_v40 (F := Ideal)) (val_main_v41 (F := Ideal) x1)
    concatenates_S16384x1_S16384x1_S16384x2_d1 (ix2 n (0 : Fin 2)) rfl (ix2 n (0 : Fin 1))
    (fun b => by match b with | ⟨0, _⟩ => rfl | ⟨1, _⟩ => rfl)).trans ?_
  have h : idx_main_v40 (ix2 n (0 : Fin 1)) = ix1 n := funext fun a => Fin.ext (by match a with | ⟨0, _⟩ => rfl)
  rw [val_main_v40_apply, h, val_main_v34_apply, val_main_v31_apply, val_main_v29_apply, val_main_v30_apply,
    val_main_c_apply]
  show Scalar.select (IntOp.cmpi .slt (BitVec.ofNat 32 n.val) 0#32) _ (BitVec.ofNat 32 n.val) = _
  rw [slt_zero_of_lt _ (by rw [BitVec.toNat_ofNat]; have := n.isLt; omega), select_zero]

/-- The second column: the label word itself, when it is below 2048. -/
theorem v42_col1 (x1 : S16384.Idx → BitVec 32) (n : Fin 16384) (hn : (x1 (ix1 n)).toNat < 2048) :
    val_main_v42 (F := Ideal) x1 (ix2 n (1 : Fin 2)) = x1 (ix1 n) := by
  unfold val_main_v42
  refine (concatenate_pair_apply_right 1 (val_main_v40 (F := Ideal)) (val_main_v41 (F := Ideal) x1)
    concatenates_S16384x1_S16384x1_S16384x2_d1 (ix2 n (1 : Fin 2)) rfl rfl (ix2 n (0 : Fin 1))
    (fun b hb => by match b with | ⟨0, _⟩ => rfl | ⟨1, _⟩ => exact absurd rfl hb) rfl).trans ?_
  have h : idx_main_v41 (ix2 n (0 : Fin 1)) = ix1 n := funext fun a => Fin.ext (by match a with | ⟨0, _⟩ => rfl)
  rw [val_main_v41_apply, h, val_main_v39_apply, val_main_v36_apply, val_main_v35_apply, val_main_c_7_apply,
    slt_zero_of_lt _ (by omega), select_zero]

/-- The gather read at a sample: the operand at the two start indices of that sample, each read signed and clamped
    into its axis. -/
theorem gather_read {α : Type} (x : S16384x2048.Idx → α) (idx : IVec S16384x2 32) (n : Fin 16384) :
    Host.gather gather_S16384x2048_S16384x2_S16384_n_01_n_n_01_1_11 x idx (ix1 n)
      = x (ix2 (⟨min (idx (ix2 n (0 : Fin 2))).toInt.toNat 16383, by omega⟩ : Fin 16384)
              (⟨min (idx (ix2 n (1 : Fin 2))).toInt.toNat 2047, by omega⟩ : Fin 2048)) := by
  unfold Host.gather
  congr 1
  funext a
  refine Fin.ext ?_
  match a with
  | ⟨0, _⟩ =>
    show gather_S16384x2048_S16384x2_S16384_n_01_n_n_01_1_11.start (ix1 n) idx 0
      + gather_S16384x2048_S16384x2_S16384_n_01_n_n_01_1_11.batchCoord (ix1 n) 0
      + gather_S16384x2048_S16384x2_S16384_n_01_n_n_01_1_11.offCoord (ix1 n) 0 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (0 : Fin 2) ∈ gather_S16384x2048_S16384x2_S16384_n_01_n_n_01_1_11.startIndexMap by decide)]
    have hsi : gather_S16384x2048_S16384x2_S16384_n_01_n_n_01_1_11.siIdx (ix1 n)
        ⟨List.idxOf (0 : Fin 2) gather_S16384x2048_S16384x2_S16384_n_01_n_n_01_1_11.startIndexMap,
          List.idxOf_lt_length_iff.2 (show (0 : Fin 2) ∈ gather_S16384x2048_S16384x2_S16384_n_01_n_n_01_1_11.startIndexMap by decide)⟩
        = ix2 n (0 : Fin 2) := by
      funext b; refine Fin.ext ?_
      match b with
      | ⟨0, _⟩ => rfl
      | ⟨1, _⟩ => rfl
    rw [hsi]
    rfl
  | ⟨1, _⟩ =>
    show gather_S16384x2048_S16384x2_S16384_n_01_n_n_01_1_11.start (ix1 n) idx 1
      + gather_S16384x2048_S16384x2_S16384_n_01_n_n_01_1_11.batchCoord (ix1 n) 1
      + gather_S16384x2048_S16384x2_S16384_n_01_n_n_01_1_11.offCoord (ix1 n) 1 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin 2) ∈ gather_S16384x2048_S16384x2_S16384_n_01_n_n_01_1_11.startIndexMap by decide)]
    have hsi : gather_S16384x2048_S16384x2_S16384_n_01_n_n_01_1_11.siIdx (ix1 n)
        ⟨List.idxOf (1 : Fin 2) gather_S16384x2048_S16384x2_S16384_n_01_n_n_01_1_11.startIndexMap,
          List.idxOf_lt_length_iff.2 (show (1 : Fin 2) ∈ gather_S16384x2048_S16384x2_S16384_n_01_n_n_01_1_11.startIndexMap by decide)⟩
        = ix2 n (1 : Fin 2) := by
      funext b; refine Fin.ext ?_
      match b with
      | ⟨0, _⟩ => rfl
      | ⟨1, _⟩ => rfl
    rw [hsi]
    rfl

/-- The gathered entry: the log-probability of the sample's own label. -/
theorem v43_eq (x0 : S16384x128.Idx → EReal) (x1 : S16384.Idx → BitVec 32) (x2 x3 : S2048x128.Idx → EReal)
    (n : Fin 16384) (hn : (x1 (ix1 n)).toNat < 2048) :
    val_main_v43 (F := Ideal) x0 x1 x2 x3 (ix1 n)
      = Cert.Spec.logp (Cert.Spec.curry2 x0) (Cert.Spec.curry2 x2) (Cert.Spec.curry2 x3) n
          (Cert.Spec.tIdx (Cert.Spec.curry1 x1 n)) := by
  unfold val_main_v43
  refine (gather_read (val_main_v28 (F := Ideal) x0 x2 x3) (val_main_v42 (F := Ideal) x1) n).trans ?_
  refine (congrArg (val_main_v28 (F := Ideal) x0 x2 x3) ?_).trans
    (v28_eq x0 x2 x3 n (Cert.Spec.tIdx (Cert.Spec.curry1 x1 n)))
  funext a
  refine Fin.ext ?_
  match a with
  | ⟨0, _⟩ =>
    show min (val_main_v42 (F := Ideal) x1 (ix2 n (0 : Fin 2))).toInt.toNat 16383 = n.val
    rw [v42_col0, toInt_toNat_of_lt _ (by rw [BitVec.toNat_ofNat]; have := n.isLt; omega), BitVec.toNat_ofNat]
    have := n.isLt; omega
  | ⟨1, _⟩ =>
    show min (val_main_v42 (F := Ideal) x1 (ix2 n (1 : Fin 2))).toInt.toNat 2047 = (x1 (ix1 n)).toNat % 2048
    rw [v42_col1 x1 n hn, toInt_toNat_of_lt _ (by omega)]
    omega

/-- A rank-1 index set of the samples is the range of its one coordinate. -/
def idxEquiv1 : S16384.Idx ≃ Fin 16384 where
  toFun j := j 0
  invFun n := ix1 n
  left_inv j := (eq_ix1 j).symm
  right_inv _ := rfl

/-- The mean loss, for label words below 2048. -/
theorem v46_eq (x0 : S16384x128.Idx → EReal) (x1 : S16384.Idx → BitVec 32) (x2 x3 : S2048x128.Idx → EReal)
    (hT : ∀ n : Fin 16384, (x1 (ix1 n)).toNat < 2048) :
    val_main_v46 (F := Ideal) x0 x1 x2 x3 = Cert.Spec.meanRarr x0 x1 x2 x3 := by
  funext i
  have hsum : (∑ j : S16384.Idx, (val_main_v44 (F := Ideal) x0 x1 x2 x3 j : EReal))
      = ∑ n : Fin 16384, Cert.Spec.lossR (Cert.Spec.curry2 x0) (Cert.Spec.curry1 x1) (Cert.Spec.curry2 x2)
          (Cert.Spec.curry2 x3) n := by
    refine (Equiv.sum_comp idxEquiv1.symm (fun j => (val_main_v44 (F := Ideal) x0 x1 x2 x3 j : EReal))).symm.trans ?_
    refine Finset.sum_congr rfl fun n _ => ?_
    show val_main_v44 (F := Ideal) x0 x1 x2 x3 (ix1 n) = _
    rw [val_main_v44_apply, v43_eq x0 x1 x2 x3 n (hT n)]
    rfl
  rw [val_main_v46_apply, val_main_v45_apply, val_main_cst_10_apply, val_main_cst_9_apply]
  show Ideal.div (Ideal.ofBits .f32 0x00000000#32 + ∑ j : S16384.Idx, (val_main_v44 (F := Ideal) x0 x1 x2 x3 j : EReal))
    (Ideal.ofBits .f32 0x46800000#32) = _
  rw [hsum, Ideal.ofBits_zero_f32, zero_add]
  rfl

end Cert.ReferenceIdeal.RefVal

end
-- ==== Proof.Algebra.lean ====
/-
  The two sides of the specification agree on finite inputs with labels below 2048.

  On real inputs every intermediate is a real number: a row's length floored at `eps > 0` is positive, so the
  normalised features are real; the clipped log-variance is real, so its inverse variance `exp (-·)` is a positive
  real. Then the kernel's logits, with `-32` and `64 = 2 · 32` folded into the summands and the bias, are the
  reference's `-32 · (qf - 2 · cf + bf)` by distributivity over the finite sums; the row maximum of real logits is
  real, so the reference's extra join with `-∞` changes nothing, and `(m + log s) - l_T` is `-((l_T - m) - log s)`
  on the reals; the masked row sum picks the label's logit since the label is a class index; and the f32 nearest
  `0.9/32` times `-32` is exactly the f32 nearest `-0.9` (a power of two scales an f32 exactly), so
  `exp (cK · LK) = exp (cR · D)`, while at the label both sides are `1` (there `exp · 0 = 0` as the exponential is finite).
-/
import proofs.«401288_j57552561766661_2_alg».proof.Proof.Spec
import Mathlib.Analysis.SpecialFunctions.Log.Basic
import Mathlib.Analysis.SpecialFunctions.Sqrt

noncomputable section

namespace Cert.Spec

open Idealize.ShloMosaic

/-! ## The literals as real numbers -/

theorem m32_eq : m32 = ((-32 : ℝ) : EReal) := by
  simp [m32, Ideal.ofBits, Ideal.ieee, -EReal.coe_mul]; norm_num

theorem c64_eq : c64 = ((64 : ℝ) : EReal) := by
  simp [c64, Ideal.ofBits, Ideal.ieee, -EReal.coe_mul]; norm_num

theorem c2_eq : c2 = ((2 : ℝ) : EReal) := by
  simp [c2, Ideal.ofBits, Ideal.ieee, -EReal.coe_mul]; norm_num

theorem c1_eq : c1 = ((1 : ℝ) : EReal) := by
  simp [c1, Ideal.ofBits, Ideal.ieee, -EReal.coe_mul]; norm_num

theorem c6_eq : c6 = ((6 : ℝ) : EReal) := by
  simp [c6, Ideal.ofBits, Ideal.ieee, -EReal.coe_mul]; norm_num

theorem cN_eq : cN = ((16384 : ℝ) : EReal) := by
  simp [cN, Ideal.ofBits, Ideal.ieee, -EReal.coe_mul]; norm_num

theorem ninf_eq : ninf = ⊥ := by
  simp [ninf, Ideal.ofBits, Ideal.ieee, -EReal.coe_mul]

/-- The floor under a row's length is a positive real. -/
theorem eps_eq : ∃ e : ℝ, 0 < e ∧ eps = (e : EReal) := by
  refine ⟨_, ?_, by simp [eps, Ideal.ofBits, Ideal.ieee, -EReal.coe_mul]; rfl⟩
  positivity

/-- The two scales inside `exp` are real, and the kernel's times `-32` is the reference's: both have the
    significand `0x666666` and their exponents differ by `5`. -/
theorem cK_cR : ∃ a b : ℝ, cK = (a : EReal) ∧ cR = (b : EReal) ∧ a * (-32) = b := by
  refine ⟨_, _, by simp [cK, Ideal.ofBits, Ideal.ieee, -EReal.coe_mul]; rfl,
    by simp [cR, Ideal.ofBits, Ideal.ieee, -EReal.coe_mul]; rfl, ?_⟩
  norm_num

/-! ## Coercion of finite sums and of `max`, `min` -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

/-! ## Real in, real out -/

/-- A real row scaled to unit length is real: its floored length is positive. -/
theorem nrmRow_real (x : Fin 128 → ℝ) :
    ∃ y : Fin 128 → ℝ, ∀ f, nrmRow (fun f => (x f : EReal)) f = (y f : EReal) := by
  obtain ⟨e, he, heq⟩ := eps_eq
  have hs : 0 ≤ ∑ f' : Fin 128, x f' * x f' := Finset.sum_nonneg (fun i _ => mul_self_nonneg _)
  have h1 : (∑ f' : Fin 128, (x f' : EReal) * (x f' : EReal)) = ((∑ f' : Fin 128, x f' * x f' : ℝ) : EReal) := by
    rw [coe_sum]; simp only [EReal.coe_mul]
  refine ⟨fun f => x f * (1 / max (Real.sqrt (∑ f' : Fin 128, x f' * x f')) e), fun f => ?_⟩
  unfold nrmRow
  rw [h1, Ideal.sqrt_coe, if_neg (not_lt.mpr hs), heq, ← coe_max',
    Ideal.div_coe (ne_of_gt (lt_max_of_lt_right he)), ← EReal.coe_mul]

theorem nrm_real {N : ℕ} (A : Fin N → Fin 128 → EReal) (hA : ∀ r f, ∃ a : ℝ, A r f = (a : EReal)) :
    ∃ y : Fin N → Fin 128 → ℝ, ∀ r f, nrm A r f = (y r f : EReal) := by
  choose a ha using hA
  have hy : ∀ r, ∃ y : Fin 128 → ℝ, ∀ f, nrm A r f = (y f : EReal) := by
    intro r
    obtain ⟨y, hy⟩ := nrmRow_real (a r)
    refine ⟨y, fun f => ?_⟩
    have : A r = fun f => (a r f : EReal) := funext (ha r)
    unfold nrm; rw [this]; exact hy f
  choose y hy using hy
  exact ⟨y, hy⟩

/-- The inverse variance of a real log-variance is real. -/
theorem ic_real (LV : Fin 2048 → Fin 128 → EReal) (hLV : ∀ c f, ∃ r : ℝ, LV c f = (r : EReal)) :
    ∃ iv : Fin 2048 → Fin 128 → ℝ, ∀ c f, ic LV c f = (iv c f : EReal) := by
  choose v hv using hLV
  refine ⟨fun c f => Real.exp (-(min 6 (max 0 (v c f)))), fun c f => ?_⟩
  unfold ic
  rw [hv, c6_eq, ← EReal.coe_zero, ← coe_max', ← coe_min', ← EReal.coe_neg, Ideal.exp_coe]

/-! ## The distance and the two logits on real data -/

/-- The distance on real normalised features, real normalised means and real inverse variances. -/
def dR (xn : Fin 16384 → Fin 128 → ℝ) (mu iv : Fin 2048 → Fin 128 → ℝ) (n : Fin 16384) (c : Fin 2048) : ℝ :=
  ((∑ f : Fin 128, (xn n f * xn n f) * iv c f) - 2 * ∑ f : Fin 128, xn n f * (mu c f * iv c f))
    + ∑ f : Fin 128, (mu c f * mu c f) * iv c f

section Key

variable (X : Fin 16384 → Fin 128 → EReal) (M LV : Fin 2048 → Fin 128 → EReal)
  (xn : Fin 16384 → Fin 128 → ℝ) (mu iv : Fin 2048 → Fin 128 → ℝ)
  (hxn : ∀ n f, nrm X n f = (xn n f : EReal)) (hmu : ∀ c f, nrm M c f = (mu c f : EReal))
  (hiv : ∀ c f, ic LV c f = (iv c f : EReal))

include hxn hmu hiv

theorem D_real (n : Fin 16384) (c : Fin 2048) : D X M LV n c = (dR xn mu iv n c : EReal) := by
  unfold D qf cf bf dR
  simp only [hxn, hmu, hiv, c2_eq, ← EReal.coe_mul, ← coe_sum, ← EReal.coe_sub, ← EReal.coe_add]

theorem LR_real (n : Fin 16384) (c : Fin 2048) : LR X M LV n c = ((-32 * dR xn mu iv n c : ℝ) : EReal) := by
  unfold LR
  rw [D_real X M LV xn mu iv hxn hmu hiv, m32_eq, ← EReal.coe_mul]

/-- The kernel's logits are the reference's: `-32` and `64 = 2 · 32` come out of the finite sums. -/
theorem LK_real (n : Fin 16384) (c : Fin 2048) : LK X M LV n c = ((-32 * dR xn mu iv n c : ℝ) : EReal) := by
  unfold LK logitK W1 W2 bK bf
  simp only [hxn, hmu, hiv, m32_eq, c64_eq, ← EReal.coe_mul, ← coe_sum, ← EReal.coe_sub, ← EReal.coe_add]
  have h1 : ∑ f : Fin 128, xn n f * xn n f * (-32 * iv c f) = -32 * ∑ f : Fin 128, xn n f * xn n f * iv c f := by
    rw [Finset.mul_sum]; exact Finset.sum_congr rfl (fun f _ => by ring)
  have h2 : ∑ f : Fin 128, xn n f * (64 * (mu c f * iv c f)) = 64 * ∑ f : Fin 128, xn n f * (mu c f * iv c f) := by
    rw [Finset.mul_sum]; exact Finset.sum_congr rfl (fun f _ => by ring)
  rw [h1, h2]
  congr 1
  unfold dR
  ring

end Key
/-! ## Labels -/

variable (X : Fin 16384 → Fin 128 → EReal) (T : Fin 16384 → BitVec 32) (M LV : Fin 2048 → Fin 128 → EReal)

/-- A label word below 2048 is unchanged by the clip to `[0, 2047]`. -/
theorem clipT_of_lt (w : BitVec 32) (h : w.toNat < 2048) : clipT w = w := by
  unfold clipT IntOp.minsi IntOp.maxsi
  have h0 : w.slt 0#32 = false := by
    simp [BitVec.slt, BitVec.toInt]; omega
  rw [h0]
  have h1 : BitVec.slt 2047#32 w = false := by
    simp [BitVec.slt, BitVec.toInt]; omega
  simp [h1]

/-- A label word below 2048 is the word of exactly one class index, its own. -/
theorem label_iff (w : BitVec 32) (h : w.toNat < 2048) (c : Fin 2048) :
    w = BitVec.ofNat 32 c.val ↔ c = tIdx w := by
  have hc := c.isLt
  constructor
  · intro hw
    have h1 : w.toNat = c.val := by
      rw [hw, BitVec.toNat_ofNat]; omega
    apply Fin.ext
    simp only [tIdx]
    omega
  · intro hc'
    apply BitVec.eq_of_toNat_eq
    rw [hc', BitVec.toNat_ofNat]
    simp only [tIdx]
    omega

/-! ## The matrix results -/

/-- The matrix results agree. -/
theorem HK_eq_HR (hX : ∀ n f, ∃ r : ℝ, X n f = (r : EReal)) (hM : ∀ c f, ∃ r : ℝ, M c f = (r : EReal))
    (hLV : ∀ c f, ∃ r : ℝ, LV c f = (r : EReal)) (hT : ∀ n, (T n).toNat < 2048) (n : Fin 16384) (c : Fin 2048) :
    HK X (fun n => clipT (T n)) M LV n c = HR X T M LV n c := by
  obtain ⟨xn, hxn⟩ := nrm_real X hX
  obtain ⟨mu, hmu⟩ := nrm_real M hM
  obtain ⟨iv, hiv⟩ := ic_real LV hLV
  obtain ⟨a, b, ha, hb, hab⟩ := cK_cR
  unfold HK HR rowHK hot
  simp only [clipT_of_lt _ (hT n)]
  rw [LK_real X M LV xn mu iv hxn hmu hiv, D_real X M LV xn mu iv hxn hmu hiv, ha, hb, c1_eq]
  by_cases h : T n = BitVec.ofNat 32 c.val
  · simp only [if_pos h]
    rw [← EReal.coe_mul, Ideal.exp_coe, EReal.coe_one, ← EReal.coe_one, ← EReal.coe_sub, sub_self, EReal.coe_zero,
      mul_zero, add_zero]
  · simp only [if_neg h]
    rw [zero_add, sub_zero, ← EReal.coe_mul, ← EReal.coe_mul, Ideal.exp_coe, Ideal.exp_coe, ← EReal.coe_mul, mul_one]
    congr 2
    rw [← hab]; ring

/-! ## The mean losses -/

/-- The greatest of 2048 real logits is real. -/
theorem rowmax_real (l : Fin 2048 → ℝ) : ∃ m : ℝ, rowmax (fun c => (l c : EReal)) = (m : EReal) := by
  unfold rowmax; rw [ninf_eq]
  have h1 : (Finset.univ : Finset (Fin 2048)).fold max (⊥ : EReal) (fun c => (l c : EReal)) ≠ ⊤ := by
    apply ne_of_lt
    rw [Finset.fold_max_lt]
    exact ⟨bot_lt_top, fun x _ => EReal.coe_lt_top _⟩
  have h2 : (Finset.univ : Finset (Fin 2048)).fold max (⊥ : EReal) (fun c => (l c : EReal)) ≠ ⊥ := by
    apply ne_of_gt
    rw [Finset.lt_fold_max]
    exact Or.inr ⟨0, Finset.mem_univ _, EReal.bot_lt_coe _⟩
  exact ⟨_, (EReal.coe_toReal h1 h2).symm⟩

/-- On a row of real logits with a label below 2048 the kernel's loss is the reference's. -/
theorem loss_real (l : Fin 2048 → ℝ) (w : BitVec 32) (hw : w.toNat < 2048) :
    rowLossK (fun c => (l c : EReal)) w =
      -(((l (tIdx w) : EReal) - max ninf (rowmax (fun c => (l c : EReal))))
        - Ideal.log (∑ c' : Fin 2048, Ideal.exp ((l c' : EReal) - max ninf (rowmax (fun c => (l c : EReal)))))) := by
  obtain ⟨m, hm⟩ := rowmax_real l
  unfold rowLossK
  rw [hm, ninf_eq, max_eq_right bot_le]
  have hs : (∑ c : Fin 2048, Ideal.exp ((l c : EReal) - (m : EReal)))
      = ((∑ c : Fin 2048, Real.exp (l c - m) : ℝ) : EReal) := by
    rw [coe_sum]; refine Finset.sum_congr rfl (fun c _ => ?_); rw [← EReal.coe_sub, Ideal.exp_coe]
  have hpos : 0 < ∑ c : Fin 2048, Real.exp (l c - m) :=
    Finset.sum_pos (fun c _ => Real.exp_pos _) Finset.univ_nonempty
  have hmask : (∑ c : Fin 2048, (if w = BitVec.ofNat 32 c.val then (l c : EReal) else 0)) = (l (tIdx w) : EReal) := by
    rw [Finset.sum_eq_single (tIdx w)]
    · rw [if_pos ((label_iff w hw _).mpr rfl)]
    · intro c _ hc; rw [if_neg (fun h => hc ((label_iff w hw c).mp h))]
    · intro h; exact absurd (Finset.mem_univ _) h
  rw [hs, hmask, Ideal.log_coe, if_neg (not_le.mpr hpos)]
  rw [← EReal.coe_add, ← EReal.coe_sub, ← EReal.coe_sub, ← EReal.coe_sub, ← EReal.coe_neg]
  refine congrArg (fun r : ℝ => (r : EReal)) ?_
  ring

/-- The mean losses agree. -/
theorem meanK_eq_meanR (hX : ∀ n f, ∃ r : ℝ, X n f = (r : EReal)) (hM : ∀ c f, ∃ r : ℝ, M c f = (r : EReal))
    (hLV : ∀ c f, ∃ r : ℝ, LV c f = (r : EReal)) (hT : ∀ n, (T n).toNat < 2048) :
    meanK X (fun n => clipT (T n)) M LV = meanR X T M LV := by
  obtain ⟨xn, hxn⟩ := nrm_real X hX
  obtain ⟨mu, hmu⟩ := nrm_real M hM
  obtain ⟨iv, hiv⟩ := ic_real LV hLV
  unfold meanK meanR
  refine congrArg (fun s : EReal => Ideal.div s cN) ?_
  refine Finset.sum_congr rfl (fun n _ => ?_)
  have hLK : LK X M LV n = fun c => ((-32 * dR xn mu iv n c : ℝ) : EReal) :=
    funext (LK_real X M LV xn mu iv hxn hmu hiv n)
  have hLR : LR X M LV n = fun c => ((-32 * dR xn mu iv n c : ℝ) : EReal) :=
    funext (LR_real X M LV xn mu iv hxn hmu hiv n)
  unfold lossK lossR logp shiftR
  simp only [hLK, hLR]
  rw [clipT_of_lt _ (hT n)]
  exact loss_real _ (T n) (hT n)

end Cert.Spec

end
-- ==== Proof.PreFacts.lean ====
/-
  What the precondition says of the arguments: every sample, class mean and class log-variance is a real number
  (its absolute value is below `+∞`), and every label word lies in `[0, 2048)` as a signed integer, hence is
  below 2048 as a natural number.
-/
import proofs.«401288_j57552561766661_2_alg».proof.Pre_finite_inputs
import proofs.«401288_j57552561766661_2_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs

instance : Subsingleton S_.Idx := ⟨fun _ _ => funext fun d => d.elim0⟩

/-- An extended real whose absolute value is below `+∞` is a real number. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  have hinf : Ideal.ofBits .f32 0x7F800000#32 = (⊤ : EReal) := by simp [Ideal.ofBits, Ideal.ieee]
  have h' : Ideal.cmp .olt (max a (-a)) (Ideal.ofBits .f32 0x7F800000#32) = 1#1 := h
  rw [hinf] at h'
  induction a using EReal.rec with
  | bot => exact absurd h' (by simp [Ideal.cmp])
  | coe r => exact ⟨r, rfl⟩
  | top => exact absurd h' (by simp [Ideal.cmp])

/-- A word in `[0, 2048)` as a signed integer is below 2048 as a natural number. -/
theorem toNat_lt (w : BitVec 32) (h0 : IntOp.cmpi .sge w 0#32 = 1#1) (h1 : IntOp.cmpi .slt w 2048#32 = 1#1) :
    w.toNat < 2048 := by
  rw [IntOp.cmpi_sge] at h0
  rw [IntOp.cmpi_slt] at h1
  have e0 : (0#32 : BitVec 32).toInt = 0 := by decide
  have e1 : (2048#32 : BitVec 32).toInt = 2048 := by decide
  rw [e0] at h0
  rw [e1] at h1
  have hlt := w.isLt
  unfold BitVec.toInt at h0 h1
  split at h1 <;> omega

variable [Facts]

/-- The precondition, read back. -/
theorem of_pre (x0 : S16384x128.Idx → EReal) (x1 : S16384.Idx → BitVec 32) (x2 x3 : S2048x128.Idx → EReal)
    (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal))
      ∧ ∀ i, (x1 i).toNat < 2048 := by
  have h0 := congrFun h ix0
  dsimp only [fn, fn_part1] at h0
  obtain ⟨h012, hT⟩ := IntOp.andi_eq_one.1 h0
  obtain ⟨h01, h3⟩ := IntOp.andi_eq_one.1 h012
  obtain ⟨hx0, hx2⟩ := IntOp.andi_eq_one.1 h01
  refine ⟨fun i => ?_, fun i => ?_, fun i => ?_, fun i => ?_⟩
  · exact real_of_abs_lt _ (Host.reduce_andi_all _ _ _ _ _ hx0 i)
  · exact real_of_abs_lt _ (Host.reduce_andi_all _ _ _ _ _ hx2 i)
  · exact real_of_abs_lt _ (Host.reduce_andi_all _ _ _ _ _ h3 i)
  · have hi := Host.reduce_andi_all _ _ _ _ _ hT i
    obtain ⟨ha, hb⟩ := IntOp.andi_eq_one.1 hi
    exact toNat_lt _ ha hb

end Cert.PreFacts

end
-- ==== Proof.lean ====
/-
  The certificate's claim. The word-level kernel and its idealization run, terminate and leave their arguments
  unchanged (their frames); the idealization rewrote nothing; and at the ideal values the kernel program and the
  reference, run from memories that agree on the four arguments, end with the same two results. For the last,
  the kernel program's results are the specification's `meanK` and `HK` of the arguments (the value read off its
  frame run), the reference's are `meanR` and `HR` (its run read stretch by stretch, and each stage at an index), and the two sides agree once
  the precondition has said that every float argument is a real number and every label lies in `[0, 2048)`.
-/
import proofs.«401288_j57552561766661_2_alg».proof.Defs
import proofs.«401288_j57552561766661_2_alg».proof.Proof.Gen.Kernel
import proofs.«401288_j57552561766661_2_alg».proof.Proof.Gen.Kernel.Skeleton
import proofs.«401288_j57552561766661_2_alg».proof.Proof.Gen.Kernel.Launch
import proofs.«401288_j57552561766661_2_alg».proof.Proof.Gen.Kernel.Points
import proofs.«401288_j57552561766661_2_alg».proof.Proof.Gen.Kernel.Frame
import proofs.«401288_j57552561766661_2_alg».proof.Proof.Gen.KernelIdeal
import proofs.«401288_j57552561766661_2_alg».proof.Proof.Gen.KernelIdeal.Skeleton
import proofs.«401288_j57552561766661_2_alg».proof.Proof.Gen.KernelIdeal.Launch
import proofs.«401288_j57552561766661_2_alg».proof.Proof.Gen.KernelIdeal.Points
import proofs.«401288_j57552561766661_2_alg».proof.Proof.Gen.KernelIdeal.Frame
import proofs.«401288_j57552561766661_2_alg».proof.Proof.Gen.ReferenceIdeal
import proofs.«401288_j57552561766661_2_alg».proof.Proof.Gen.Pre_finite_inputs
import proofs.«401288_j57552561766661_2_alg».proof.Proof.KRun
import proofs.«401288_j57552561766661_2_alg».proof.Proof.RefRun
import proofs.«401288_j57552561766661_2_alg».proof.Proof.RefRead
import proofs.«401288_j57552561766661_2_alg».proof.Proof.RefRunVal
import proofs.«401288_j57552561766661_2_alg».proof.Proof.RefVal
import proofs.«401288_j57552561766661_2_alg».proof.Proof.Algebra
import proofs.«401288_j57552561766661_2_alg».proof.Proof.PreFacts
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2)
    (Cert.ReferenceIdeal.RunVal.run (F := Ideal) m ρ)

/-- The two specifications' array forms agree under the precondition's facts. -/
theorem spec_eq (aX : (⟨2, ![16384, 128]⟩ : Shape).Idx → EReal) (aT : (⟨1, ![16384]⟩ : Shape).Idx → BitVec 32)
    (aM aLV : (⟨2, ![2048, 128]⟩ : Shape).Idx → EReal)
    (hX : ∀ i, ∃ r : ℝ, aX i = (r : EReal)) (hM : ∀ i, ∃ r : ℝ, aM i = (r : EReal))
    (hLV : ∀ i, ∃ r : ℝ, aLV i = (r : EReal)) (hT : ∀ i, (aT i).toNat < 2048) :
    Cert.Spec.meanRarr aX aT aM aLV = Cert.Spec.meanKarr aX aT aM aLV
      ∧ Cert.Spec.HRarr aX aT aM aLV = Cert.Spec.HKarr aX aT aM aLV := by
  refine ⟨funext fun _ => ?_, funext fun i => ?_⟩
  · exact (Cert.Spec.meanK_eq_meanR _ _ _ _ (fun n f => hX _) (fun c f => hM _) (fun c f => hLV _) (fun n => hT _)).symm
  · exact (Cert.Spec.HK_eq_HR _ _ _ _ (fun n f => hX _) (fun c f => hM _) (fun c f => hLV _) (fun n => hT _) (i 0) (i 1)).symm

theorem algebraic : Cert.algebraic_KernelIdeal_ReferenceIdeal := by
  intro m ρ m' ρ' hpre hagree
  refine ⟨fun c => Cert.Spec.meanKarr (Cert.KernelIdeal.HostVal.aX m c) (Cert.KernelIdeal.HostVal.aT m c)
      (Cert.KernelIdeal.HostVal.aM m c) (Cert.KernelIdeal.HostVal.aLV m c),
    fun c => Cert.Spec.HKarr (Cert.KernelIdeal.HostVal.aX m c) (Cert.KernelIdeal.HostVal.aT m c)
      (Cert.KernelIdeal.HostVal.aM m c) (Cert.KernelIdeal.HostVal.aLV m c),
    Cert.KernelIdeal.ValueRun.run m ρ, ?_⟩
  refine (θ_run Cert.ReferenceIdeal.defs _ _).mono (fun _ h c => ?_)
    (Cert.ReferenceIdeal.RunVal.run (F := Ideal) m' ρ')
  obtain ⟨hX, hM, hLV, hT⟩ := Cert.PreFacts.of_pre _ _ _ _ (hpre c)
  obtain ⟨e0, e1⟩ := spec_eq _ _ _ _ hX hM hLV hT
  refine ⟨?_, ?_, (h c).2.2⟩
  · rw [(h c).1]
    dsimp only [Cert.ReferenceIdeal.RunVal.a0, Cert.ReferenceIdeal.RunVal.a1, Cert.ReferenceIdeal.RunVal.a2,
      Cert.ReferenceIdeal.RunVal.a3]
    rw [(hagree c).1, (hagree c).2.1, (hagree c).2.2.1, (hagree c).2.2.2,
      Cert.ReferenceIdeal.RefVal.v46_eq _ _ _ _ (fun n => hT _)]
    exact e0
  · rw [(h c).2.1]
    dsimp only [Cert.ReferenceIdeal.RunVal.a0, Cert.ReferenceIdeal.RunVal.a1, Cert.ReferenceIdeal.RunVal.a2,
      Cert.ReferenceIdeal.RunVal.a3]
    rw [(hagree c).1, (hagree c).2.1, (hagree c).2.2.1, (hagree c).2.2.2, Cert.ReferenceIdeal.RefVal.v54_eq]
    exact e1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
